-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512x768 : Shape := ⟨2, ![512, 768]⟩
abbrev S2048x128 : Shape := ⟨2, ![2048, 128]⟩
abbrev S128 : Shape := ⟨1, ![128]⟩
abbrev S768x128 : Shape := ⟨2, ![768, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S512x768 : S_.BroadcastsInDim S512x768 (![] : Fin 0 → Fin S512x768.rank)
  reducesTo_S512x768_S_d0_1 : S512x768.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S768x128 : S_.BroadcastsInDim S768x128 (![] : Fin 0 → Fin S768x128.rank)
  reducesTo_S768x128_S_d0_1 : S768x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S128x1 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S768x128 .f32) (main_arg5 : FVec F S128 .f32) (main_arg6 : FVec F S256x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S768x128 .f32 := Host.absf main_arg4
  let main_cst_6 : FVec F S_ .f32 := constant S_ .f32 0x7F800000#32
  let main_v20 : FVec F S768x128 .f32 := broadcastInDim S768x128 ![] bcast_S_S768x128 main_cst_6
  let main_v21 : IVec S768x128 1 := cmpf .olt main_v19 main_v20
  let main_c_7 : IVec S_ 1 := constantI S_ 1 1#1
  let main_v22 : IVec S_ 1 := (fun x v => Host.reduce IntOp.andi x v reducesTo_S768x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x2048 .f32) (main_arg1 : FVec F S512x768 .f32) (main_arg2 : FVec F S2048x128 .f32) (main_arg3 : FVec F S128 .f32) (main_arg4 : FVec F S768x128 .f32) (main_arg5 : FVec F S128 .f32) (main_arg6 : FVec F S256x128 .f32) (main_arg7 : FVec F S128 .f32) (main_arg8 : FVec F S128x1 .f32) (main_arg9 : FVec F S1 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S512x2048 : Shape := ⟨2, ![512, 2048]⟩
abbrev S512x768 : Shape := ⟨2, ![512, 768]⟩
abbrev S2048x128 : Shape := ⟨2, ![2048, 128]⟩
abbrev S128 : Shape := ⟨1, ![128]⟩
abbrev S768x128 : Shape := ⟨2, ![768, 128]⟩
abbrev S256x128 : Shape := ⟨2, ![256, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S128x128 : Shape := ⟨2, ![128, 128]⟩
abbrev S1x1 : Shape := ⟨2, ![1, 1]⟩
abbrev S64x128 : Shape := ⟨2, ![64, 128]⟩
abbrev S1x1x128 : Shape := ⟨3, ![1, 1, 128]⟩
abbrev S64x1x128 : Shape := ⟨3, ![64, 1, 128]⟩
abbrev S1x64x128 : Shape := ⟨3, ![1, 64, 128]⟩
abbrev S64x64x128 : Shape := ⟨3, ![64, 64, 128]⟩
abbrev S64x64 : Shape := ⟨2, ![64, 64]⟩
abbrev S64 : Shape := ⟨1, ![64]⟩
abbrev S64x1 : Shape := ⟨2, ![64, 1]⟩
abbrev S_ : Shape := ⟨0, ![]⟩

abbrev nBuf : Space → Nat
  | .hbm => 36
  | .vmem => 12
  | .smem => 0
  | _ => 0

abbrev bufTy : (tb : Table) → Fin (tcTables nBuf tb) → BufTy
  | .hbm, ⟨0, _⟩ => ⟨S512x2048, .f32⟩
  | .hbm, ⟨1, _⟩ => ⟨S512x768, .f32⟩
  | .hbm, ⟨2, _⟩ => ⟨S2048x128, .f32⟩
  | .hbm, ⟨3, _⟩ => ⟨S128, .f32⟩
  | .hbm, ⟨4, _⟩ => ⟨S768x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S512x128, .f32⟩
  | .hbm, ⟨11, _⟩ => ⟨S1x128, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S1x128, .f32⟩
  | .hbm, ⟨16, _⟩ => ⟨S512x128, .f32⟩
  | .hbm, ⟨17, _⟩ => ⟨S512x128, .f32⟩
  | .hbm, ⟨18, _⟩ => ⟨S128x128, .f32⟩
  | .hbm, ⟨19, _⟩ => ⟨S128x128, .f32⟩
  | .hbm, ⟨20, _⟩ => ⟨S512x128, .f32⟩
  | .hbm, ⟨21, _⟩ => ⟨S1x128, .f32⟩
  | .hbm, ⟨22, _⟩ => ⟨S512x128, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S1x128, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S1x128, .f32⟩
  | .hbm, ⟨31, _⟩ => ⟨S1x1, .f32⟩
  | .hbm, ⟨32, _⟩ => ⟨S1x1, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v68 : BitVec 1 := Scalar.cmpi .eq arg0 c7_i32
  let arg1 : BitVec 32 := BitVec.ofNat 32 (i 1).val
  let c7_i32_25 : BitVec 32 := 7#32
  let v69 : BitVec 1 := Scalar.cmpi .eq arg1 c7_i32_25
  let v70 : BitVec 1 := Scalar.andi v68 v69
  let v71 : BitVec 32 := Scalar.extui v70
  let c0_i32_26 : BitVec 32 := 0#32
  let v72 : BitVec 1 := Scalar.cmpi .ne v71 c0_i32_26
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  slices_S256x128_S128x128_0_0 : S256x128.Slices ![0, 0] S128x128
  slices_S256x128_S128x128_128_0 : S256x128.Slices ![128, 0] S128x128
  shapeCasts_S128x1_S1x128 : S128x1.ShapeCasts S1x128
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  broadcasts_S1x1x128_S64x64x128 : S1x1x128.Broadcasts S64x64x128
  reduces_S64x64x128_S64x64 : S64x64x128.Reduces [2] S64x64
  broadcasts_S1x1_S64x64 : S1x1.Broadcasts S64x64
  iota_S64x64_d0_w32 : S64x64.Iotas .tc 32 [0]
  iota_S64x64_d1_w32 : S64x64.Iotas .tc 32 [1]
  reduces_S64x64_S64 : S64x64.Reduces [1] S64
  shapeCasts_S64_S64x1 : S64.ShapeCasts S64x1
  reduces_S64x1_S1 : S64x1.Reduces [0] S1
  shapeCasts_S1x1_S_ : S1x1.ShapeCasts S_
  dot_S512x2048_S2048x128_S512x128_1_0_0_1_n_n_wf : DotDims.WF S512x2048 S2048x128 S512x128 [1] [0] [0] [1] [] []
  dot_S512x768_S768x128_S512x128_1_0_0_1_n_n_wf : DotDims.WF S512x768 S768x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S512x128.size a
  hwx0_0 : ∀ i : grid0.Coords, EltTy.bits .f32 = 32 ∨ (Rect.block (s := S512x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S512x128.size a
  hwx0_1 : ∀ i : grid0.Coords, EltTy.bits .f32 = 32 ∨ (Rect.block (s := S512x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S512x128.size a
  hwx0_2 : ∀ i : grid0.Coords, EltTy.bits .f32 = 32 ∨ (Rect.block (s := S512x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S512x128.size a
  hwx0_3 : ∀ i : grid0.Coords, EltTy.bits .f32 = 32 ∨ (Rect.block (s := S512x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v13) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S512x2048 : Shape := ⟨2, ![512, 2048]⟩
abbrev S512x768 : Shape := ⟨2, ![512, 768]⟩
abbrev S2048x128 : Shape := ⟨2, ![2048, 128]⟩
abbrev S128 : Shape := ⟨1, ![128]⟩
abbrev S768x128 : Shape := ⟨2, ![768, 128]⟩
abbrev S256x128 : Shape := ⟨2, ![256, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S512x1x128 : Shape := ⟨3, ![512, 1, 128]⟩
abbrev S512x512x128 : Shape := ⟨3, ![512, 512, 128]⟩
abbrev S1x512x128 : Shape := ⟨3, ![1, 512, 128]⟩
abbrev S512x512x256 : Shape := ⟨3, ![512, 512, 256]⟩
abbrev S1x1x128 : Shape := ⟨3, ![1, 1, 128]⟩
abbrev S_ : Shape := ⟨0, ![]⟩
abbrev S512x512x1 : Shape := ⟨3, ![512, 512, 1]⟩
abbrev S1x1x1 : Shape := ⟨3, ![1, 1, 1]⟩
abbrev S512x512 : Shape := ⟨2, ![512, 512]⟩

abbrev nBuf : Space → Nat
  | .hbm => 96
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x768, .f32⟩
  | .hbm, ⟨2, _⟩ => ⟨S2048x128, .f32⟩
  | .hbm, ⟨3, _⟩ => ⟨S128, .f32⟩
  | .hbm, ⟨4, _⟩ => ⟨S768x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S512x128, .f32⟩
  | .hbm, ⟨11, _⟩ => ⟨S1x128, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S1x128, .f32⟩
  | .hbm, ⟨16, _⟩ => ⟨S512x128, .f32⟩
  | .hbm, ⟨17, _⟩ => ⟨S512x128, .f32⟩
  | .hbm, ⟨18, _⟩ => ⟨S512x1x128, .f32⟩
  | .hbm, ⟨19, _⟩ => ⟨S512x512x128, .f32⟩
  | .hbm, ⟨20, _⟩ => ⟨S1x512x128, .f32⟩
  | .hbm, ⟨21, _⟩ => ⟨S512x512x128, .f32⟩
  | .hbm, ⟨22, _⟩ => ⟨S512x512x256, .f32⟩
  | .hbm, ⟨23, _⟩ => ⟨S512x512x128, .f32⟩
  | .hbm, ⟨24, _⟩ => ⟨S1x1x128, .f32⟩
  | .hbm, ⟨25, _⟩ => ⟨S512x512x128, .f32⟩
  | .hbm, ⟨26, _⟩ => ⟨S512x512x128, .f32⟩
  | .hbm, ⟨27, _⟩ => ⟨S_, .f32⟩
  | .hbm, ⟨28, _⟩ => ⟨S512x512x128, .f32⟩
  | .hbm, ⟨29, _⟩ => ⟨S512x512x128, .f32⟩
  | .hbm, ⟨30, _⟩ => ⟨S512x512x1, .f32⟩
  | .hbm, ⟨31, _⟩ => ⟨S1x1x1, .f32⟩
  | .hbm, ⟨32, _⟩ => ⟨S512x512x1, .f32⟩
  | .hbm, ⟨33, _⟩ => ⟨S512x512x1, .f32⟩
  | .hbm, ⟨34, _⟩ => ⟨S512x512x1, .f32⟩
  | .hbm, ⟨35, _⟩ => ⟨S512x512x1, .f32⟩
  | .hbm, ⟨36, _⟩ => ⟨S_, .f32⟩
  | .hbm, ⟨37, _⟩ => ⟨S512x512x1, .f32⟩
  | .hbm, ⟨38, _⟩ => ⟨S512x512x1, .f32⟩
  | .hbm, ⟨39, _⟩ => ⟨S_, .f32⟩
  | .hbm, ⟨40, _⟩ => ⟨S512x512x1, .f32⟩
  | .hbm, ⟨41, _⟩ => ⟨S512x512x1, .f32⟩
  | .hbm, ⟨42, _⟩ => ⟨S512x512, .f32⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x1x128, .f32⟩
  | .hbm, ⟨55, _⟩ => ⟨S512x512x128, .f32⟩
  | .hbm, ⟨56, _⟩ => ⟨S1x512x128, .f32⟩
  | .hbm, ⟨57, _⟩ => ⟨S512x512x128, .f32⟩
  | .hbm, ⟨58, _⟩ => ⟨S512x512x256, .f32⟩
  | .hbm, ⟨59, _⟩ => ⟨S512x512x128, .f32⟩
  | .hbm, ⟨60, _⟩ => ⟨S1x1x128, .f32⟩
  | .hbm, ⟨61, _⟩ => ⟨S512x512x128, .f32⟩
  | .hbm, ⟨62, _⟩ => ⟨S512x512x128, .f32⟩
  | .hbm, ⟨63, _⟩ => ⟨S_, .f32⟩
  | .hbm, ⟨64, _⟩ => ⟨S512x512x128, .f32⟩
  | .hbm, ⟨65, _⟩ => ⟨S512x512x128, .f32⟩
  | .hbm, ⟨66, _⟩ => ⟨S512x512x1, .f32⟩
  | .hbm, ⟨67, _⟩ => ⟨S1x1x1, .f32⟩
  | .hbm, ⟨68, _⟩ => ⟨S512x512x1, .f32⟩
  | .hbm, ⟨69, _⟩ => ⟨S512x512x1, .f32⟩
  | .hbm, ⟨70, _⟩ => ⟨S512x512x1, .f32⟩
  | .hbm, ⟨71, _⟩ => ⟨S512x512x1, .f32⟩
  | .hbm, ⟨72, _⟩ => ⟨S_, .f32⟩
  | .hbm, ⟨73, _⟩ => ⟨S512x512x1, .f32⟩
  | .hbm, ⟨74, _⟩ => ⟨S512x512x1, .f32⟩
  | .hbm, ⟨75, _⟩ => ⟨S_, .f32⟩
  | .hbm, ⟨76, _⟩ => ⟨S512x512x1, .f32⟩
  | .hbm, ⟨77, _⟩ => ⟨S512x512x1, .f32⟩
  | .hbm, ⟨78, _⟩ => ⟨S512x512, .f32⟩
  | .hbm, ⟨79, _⟩ => ⟨S512x512, .i32⟩
  | .hbm, ⟨80, _⟩ => ⟨S512x512, .i32⟩
  | .hbm, ⟨81, _⟩ => ⟨S_, .i32⟩
  | .hbm, ⟨82, _⟩ => ⟨S512x512, .i32⟩
  | .hbm, ⟨83, _⟩ => ⟨S512x512, .i32⟩
  | .hbm, ⟨84, _⟩ => ⟨S512x512, .i1⟩
  | .hbm, ⟨85, _⟩ => ⟨S512x512, .f32⟩
  | .hbm, ⟨86, _⟩ => ⟨S_, .f32⟩
  | .hbm, ⟨87, _⟩ => ⟨S512x512, .f32⟩
  | .hbm, ⟨88, _⟩ => ⟨S512x512, .f32⟩
  | .hbm, ⟨89, _⟩ => ⟨S512x512, .f32⟩
  | .hbm, ⟨90, _⟩ => ⟨S512x512, .f32⟩
  | .hbm, ⟨91, _⟩ => ⟨S512x512, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_cst : Ref sig .tc := ⟨.hbm, 63, rfl⟩
abbrev main_call1_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_2 : Ref sig .tc := ⟨.hbm, 72, rfl⟩
abbrev main_v54 : Ref sig .tc := ⟨.hbm, 73, rfl⟩
abbrev main_v55 : Ref sig .tc := ⟨.hbm, 74, rfl⟩
abbrev main_cst_3 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_4 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_5 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_6 : Ref sig .tc := ⟨.hbm, 92, rfl⟩
abbrev main_v70 : Ref sig .tc := ⟨.hbm, 93, rfl⟩
abbrev main_cst_7 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  concatenates_S512x512x128_S512x512x128_S512x512x256_d2 : Shape.Concatenates [S512x512x128, S512x512x128] S512x512x256 2
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S_S512x512x128 : S_.BroadcastsInDim S512x512x128 (![] : Fin 0 → Fin S512x512x128.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  bcast_S_S512x512x1 : S_.BroadcastsInDim S512x512x1 (![] : Fin 0 → Fin S512x512x1.rank)
  shapeCasts_S512x512x1_S512x512 : S512x512x1.ShapeCasts S512x512
  bcast_S_S512x512 : S_.BroadcastsInDim S512x512 (![] : Fin 0 → Fin S512x512.rank)
  reducesTo_S512x512_S_d0_1 : S512x512.ReducesTo [0, 1] S_
  h_S_ : 0 < S_.numel
  dot_S512x2048_S2048x128_S512x128_1_0_0_1_n_n_wf : DotDims.WF S512x2048 S2048x128 S512x128 [1] [0] [0] [1] [] []
  dot_S512x768_S768x128_S512x128_1_0_0_1_n_n_wf : DotDims.WF S512x768 S768x128 S512x128 [1] [0] [0] [1] [] []
  dot_S512x512x256_S256x128_S512x512x128_2_0_01_1_n_n_wf : DotDims.WF S512x512x256 S256x128 S512x512x128 [2] [0] [0, 1] [1] [] []
  dot_S512x512x128_S128x1_S512x512x1_2_0_01_1_n_n_wf : DotDims.WF S512x512x128 S128x1 S512x512x1 [2] [0] [0, 1] [1] [] []

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S512x512x256_S256x128_S512x512x128_2_0_01_1_n_n : DotDims S512x512x256 S256x128 S512x512x128 where
  lhsContracting := [2]
  rhsContracting := [0]
  lhsNonContracting := [0, 1]
  rhsNonContracting := [1]
  lhsBatch := []
  rhsBatch := []
  wf := dot_S512x512x256_S256x128_S512x512x128_2_0_01_1_n_n_wf
def dot_S512x512x128_S128x1_S512x512x1_2_0_01_1_n_n : DotDims S512x512x128 S128x1 S512x512x1 where
  lhsContracting := [2]
  rhsContracting := [0]
  lhsNonContracting := [0, 1]
  rhsNonContracting := [1]
  lhsBatch := []
  rhsBatch := []
  wf := dot_S512x512x128_S128x1_S512x512x1_2_0_01_1_n_n_wf

class Facts : Prop extends Facts₀ where

variable [Facts]
-- ==== Proof.KStepDef.lean ====
/-
  One grid point's update of the running total, as one pure term: the body adds to the carried 1 x 1 accumulator the sum
  over the point's 64 x 64 tile of the squared score differences, computed from the point's six input blocks.
-/
import proofs.«177132_j47674136986059_1_alg».proof.Proof.Gen.KernelIdeal.Frame

noncomputable section

namespace Cert.KernelIdeal.Step

open Idealize.ShloMosaic Cert.KernelIdeal Cert.KernelIdeal.Gen

variable {F : FTy → Type} [FloatOps F]

/-- The accumulator after the body at grid coordinates `i`, from the accumulator before it and the six input blocks:
    the body's one store into the carried scratch, its loads named. -/
def step (i : grid0.Coords) (x0 x1 x2 x3 : Vec F S64x128 .f32) (x4 : Vec F S1x128 .f32) (x5 : Vec F S1x1 .f32)
    (acc : Vec F S1x1 .f32) : Vec F S1x1 .f32 :=
  k0_pay1 (BitVec.ofNat 32 (i 0).val) (BitVec.ofNat 32 (i 1).val) (k0_pay4 x5) (k0_pay5 x0 x1 x4 x5) (k0_pay6 x2 x3)
    (k0_pay7 x4) acc

/-- The accumulator the first point starts from: the stored zero. -/
def zeroAcc : Vec F S1x1 .f32 := k0_pay2

end Cert.KernelIdeal.Step

end
-- ==== Proof.KPieces.lean ====
/-
  What each control case of the body leaves behind is one accumulation step. At the grid's first point the body stores
  zero into the carried accumulator and then adds the tile's sum to what it reads back; at every later point it adds
  the tile's sum to what the point before left; at the last point it also copies the new total into the output block.
-/
import proofs.«177132_j47674136986059_1_alg».proof.Proof.KStepDef
import Idealize.ShloMosaic.Lib.Pipeline.Value
import Idealize.ShloMosaic.Lib.Tactic

set_option maxRecDepth 16384

noncomputable section

namespace Cert.KernelIdeal.Step

open Idealize.ShloMosaic Idealize.ShloMosaic.TcCoe Idealize.SL.Sem Cert.KernelIdeal Cert.KernelIdeal.Gen

variable {F : FTy → Type} [FloatOps F]

/-- The offset of a whole-block access. -/
theorem hz : (![0, 0] : Fin 2 → Nat) = fun _ => 0 := funext fun a => by fin_cases a <;> rfl

/-- A middle point: the accumulator becomes the step over what the point before left. -/
theorem sout_B (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S64x128 .f32) (x1 : Vec F S64x128 .f32) (x2 : Vec F S64x128 .f32) (x3 : Vec F S64x128 .f32) (x4 : Vec F S1x128 .f32) (x5 : Vec F S1x1 .f32) (xs0 : Vec F S1x1 .f32) :
    sout0_B_0 c i arg2 harg2 arg3 harg3 arg4 harg4 arg5 harg5 arg6 harg6 arg7 harg7 arg8 harg8 arg9 harg9 hc0 hc1 x0 x1 x2 x3 x4 x5 xs0 = step i x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  unfold step
  simp only [View.readAt_eq_ld, harg2.read_unread, harg3.read_unread, harg4.read_unread, harg5.read_unread, harg6.read_unread, harg7.read_unread, harg9.read_unread, View.ld_unit_zero (S := S64x128) hz, View.ld_unit_zero (S := S1x128) hz, View.ld_unit_zero (S := S1x1) hz]

/-- The last point: the accumulator becomes the step over what the point before left, -/
theorem sout_C (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S64x128 .f32) (x1 : Vec F S64x128 .f32) (x2 : Vec F S64x128 .f32) (x3 : Vec F S64x128 .f32) (x4 : Vec F S1x128 .f32) (x5 : Vec F S1x1 .f32) (xs0 : Vec F S1x1 .f32) :
    sout0_C_0 c i arg2 harg2 arg3 harg3 arg4 harg4 arg5 harg5 arg6 harg6 arg7 harg7 arg8 harg8 arg9 harg9 hc0 hc1 x0 x1 x2 x3 x4 x5 xs0 = step i x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  unfold step
  simp only [View.readAt_eq_ld, harg2.read_unread, harg3.read_unread, harg4.read_unread, harg5.read_unread, harg6.read_unread, harg7.read_unread, harg9.read_unread, View.ld_unit_zero (S := S64x128) hz, View.ld_unit_zero (S := S1x128) hz, View.ld_unit_zero (S := S1x1) hz]

/-- and the output block receives that same total. -/
theorem out_C (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S64x128 .f32) (x1 : Vec F S64x128 .f32) (x2 : Vec F S64x128 .f32) (x3 : Vec F S64x128 .f32) (x4 : Vec F S1x128 .f32) (x5 : Vec F S1x1 .f32) (xs0 : Vec F S1x1 .f32) :
    out0_C_6 c i arg2 harg2 arg3 harg3 arg4 harg4 arg5 harg5 arg6 harg6 arg7 harg7 arg8 harg8 arg9 harg9 hc0 hc1 x0 x1 x2 x3 x4 x5 xs0 = step i x0 x1 x2 x3 x4 x5 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero (S := S1x1) _ hz]
  unfold step
  simp only [View.readAt_eq_ld, harg2.read_unread, harg3.read_unread, harg4.read_unread, harg5.read_unread, harg6.read_unread, harg7.read_unread, harg9.read_unread, View.ld_unit_zero (S := S64x128) hz, View.ld_unit_zero (S := S1x128) hz, View.ld_unit_zero (S := S1x1) hz]

/-- The first point: the accumulator becomes the step over the stored zero. -/
theorem sout_A (c : Dev nD) (i : grid0.Coords) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S64x128 .f32) (x1 : Vec F S64x128 .f32) (x2 : Vec F S64x128 .f32) (x3 : Vec F S64x128 .f32) (x4 : Vec F S1x128 .f32) (x5 : Vec F S1x1 .f32) :
    sout0_A_0 c i arg2 harg2 arg3 harg3 arg4 harg4 arg5 harg5 arg6 harg6 arg7 harg7 arg8 harg8 arg9 harg9 hc0 hc1 x0 x1 x2 x3 x4 x5 = step i x0 x1 x2 x3 x4 x5 zeroAcc := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz, View.readCov_unit_zero (S := S1x1) _ hz]
  unfold step zeroAcc
  simp only [View.readAt_eq_ld, harg2.read_unread, harg3.read_unread, harg4.read_unread, harg5.read_unread, harg6.read_unread, harg7.read_unread, harg9.read_unread, View.ld_unit_zero (S := S64x128) hz, View.ld_unit_zero (S := S1x128) hz, View.ld_unit_zero (S := S1x1) hz]

end Cert.KernelIdeal.Step

end
-- ==== Proof.Spec.lean ====
/-
  The mathematics both programs compute, stated once over plain extended-real arrays and importing neither program.

  Two feature matrices (teacher, student) are projected to 512 rows of 128 features by a linear layer. For each ordered
  pair of rows (i, j) a relation score is the logistic of a two-layer perceptron applied to the concatenation
  (f i, f j): a hidden layer of 128 rectified units with weights W1 (256 x 128) and bias b1, then one output unit with
  weights W2 and bias b2. The diagonal pairs score zero. The loss is the mean over all 512 x 512 pairs of the squared
  difference of the student's and the teacher's scores.

  The concatenation never has to be formed: W1's first 128 rows meet f i and its last 128 rows meet f j, so the hidden
  pre-activation is (f i . W1_lo + b1) + f j . W1_hi (`headA` + `headB`). That is the kernel's arrangement; the
  reference contracts all 256 rows at once and adds the bias last (`pre_concat`): the two agree by splitting the sum at
  128 and re-associating, which needs no finiteness on the extended reals.
-/
import Idealize.ShloMosaic.PureOps.Ideal
import Idealize.ShloMosaic.Lib.ValueIdx
import Mathlib.Algebra.BigOperators.Fin

noncomputable section

namespace Cert.PairRel

open Idealize.ShloMosaic Idealize.ShloMosaic.ValueIdx

/-- A rank-2 array of extended reals of literal extents. -/
abbrev A2 (n0 n1 : Nat) := (⟨2, ![n0, n1]⟩ : Shape).Idx → EReal
/-- A rank-1 array of extended reals of literal extent. -/
abbrev A1 (n : Nat) := (⟨1, ![n]⟩ : Shape).Idx → EReal

/-- Row `k` of the first half of a 256-row matrix. -/
def lo (k : Fin 128) : Fin 256 := ⟨k.val, by have := k.isLt; omega⟩
/-- Row `k` of the second half of a 256-row matrix. -/
def hi (k : Fin 128) : Fin 256 := ⟨128 + k.val, by have := k.isLt; omega⟩

/-- A linear layer: entry (i, h) of X . W + b. -/
def lin {D : Nat} (X : A2 512 D) (W : A2 D 128) (b : A1 128) (i : Fin 512) (h : Fin 128) : EReal :=
  (∑ k : Fin D, X (ix2 i k) * W (ix2 k h)) + b (ix1 h)

/-- The first row's share of the hidden pre-activation, bias included: f i . W1_lo + b1. -/
def headA (f : Fin 512 → Fin 128 → EReal) (W1 : A2 256 128) (b1 : A1 128) (i : Fin 512) (h : Fin 128) : EReal :=
  (∑ k : Fin 128, f i k * W1 (ix2 (lo k) h)) + b1 (ix1 h)

/-- The second row's share of the hidden pre-activation: f j . W1_hi. -/
def headB (f : Fin 512 → Fin 128 → EReal) (W1 : A2 256 128) (j : Fin 512) (h : Fin 128) : EReal :=
  ∑ k : Fin 128, f j k * W1 (ix2 (hi k) h)

/-- The squared difference of two relation scores, from the four shares of the hidden pre-activations of one pair
    (teacher's first and second row, student's first and second row), the output unit's weights and bias, and whether
    the pair is diagonal. -/
def pairSq (aT bT aS bS w2 : Fin 128 → EReal) (b2 : EReal) (diag : Prop) [Decidable diag] : EReal :=
  let relT : EReal := if diag then 0 else Ideal.logistic ((∑ h : Fin 128, max (aT h + bT h) 0 * w2 h) + b2)
  let relS : EReal := if diag then 0 else Ideal.logistic ((∑ h : Fin 128, max (aS h + bS h) 0 * w2 h) + b2)
  (relS - relT) * (relS - relT)

section
variable (X : A2 512 2048) (Y : A2 512 768) (Wt : A2 2048 128) (bt : A1 128) (Ws : A2 768 128) (bs : A1 128)
  (W1 : A2 256 128) (b1 : A1 128) (W2 : A2 128 1) (b2 : A1 1)

/-- The squared score difference of the pair (i, j). -/
def sqd (i j : Fin 512) : EReal :=
  pairSq (headA (lin X Wt bt) W1 b1 i) (headB (lin X Wt bt) W1 j) (headA (lin Y Ws bs) W1 b1 i) (headB (lin Y Ws bs) W1 j)
    (fun h => W2 (ix2 h (0 : Fin 1))) (b2 (ix1 (0 : Fin 1))) (i = j)

/-- The sum of the squared score differences over all pairs. -/
def lossSum : EReal := ∑ i : Fin 512, ∑ j : Fin 512, sqd X Y Wt bt Ws bs W1 b1 W2 b2 i j

/-- The loss: that sum divided by the number of pairs, the divisor kept as the binary32 word both programs print. -/
def loss : EReal :=
  FloatOps.hostDivf (F := Ideal) (φ := .f32) (lossSum X Y Wt bt Ws bs W1 b1 W2 b2) (FloatOps.ofBits .f32 0x48800000#32)

/-- The squared score differences of the 64 x 64 tile at grid point `t` of an 8 x 8 grid, summed. -/
def tileSum (t : Fin 64) : EReal :=
  ∑ r : Fin 64, ∑ cc : Fin 64,
    sqd X Y Wt bt Ws bs W1 b1 W2 b2 ⟨64 * (t.val / 8) + r.val, by have := t.isLt; have := r.isLt; omega⟩
      ⟨64 * (t.val % 8) + cc.val, by have := t.isLt; have := cc.isLt; omega⟩
end

end Cert.PairRel

end
-- ==== Proof.KStepIdeal.lean ====
/-
  One grid point's update at the ideal instance, read at its one index: the accumulator grows by the sum over the tile's
  64 x 64 pairs of the squared score differences. Row r of the first-row blocks and row cc of the second-row blocks give
  the pair's hidden pre-activations; the pair is diagonal when its global row and column numbers agree.
-/
import proofs.«177132_j47674136986059_1_alg».proof.Proof.KStepDef
import proofs.«177132_j47674136986059_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Step

open Idealize.ShloMosaic Idealize.ShloMosaic.ValueIdx Cert.KernelIdeal Cert.KernelIdeal.Gen Cert.PairRel

/-! ## Layout operations of this body, read at coordinates -/

section Layout
variable {α : Type}

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, c]` array broadcast to `[a, b, c]` reads, at `(i, m, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (ha : a ≠ 1) (hc : c ≠ 1)
    (i : Fin a) (m : Fin b) (j : Fin c) :
    broadcastTo ⟨3, ![a, b, c]⟩ v h (ix3 i m j) = v (ix3 i (0 : Fin 1) j) := by
  refine broadcastTo_apply v h (ix3 i m j) (ix3 i (0 : Fin 1) j) fun ax => ?_
  match ax with
  | ⟨0, _⟩ =>
    show i.val = if a = 1 then 0 else i.val
    rw [if_neg ha]
  | ⟨1, _⟩ => rfl
  | ⟨2, _⟩ =>
    show j.val = if c = 1 then 0 else j.val
    rw [if_neg hc]

/-- A `[1, b, c]` array broadcast to `[a, b, c]` reads, at `(i, m, j)`, the operand at `(0, m, j)`. -/
theorem broadcastTo_1bc_abc_apply {a b c : ℕ} (v : (⟨3, ![1, b, c]⟩ : Shape).Idx → α)
    (h : (⟨3, ![1, b, c]⟩ : Shape).Broadcasts ⟨3, ![a, b, c]⟩) (hb : b ≠ 1) (hc : c ≠ 1)
    (i : Fin a) (m : Fin b) (j : Fin c) :
    broadcastTo ⟨3, ![a, b, c]⟩ v h (ix3 i m j) = v (ix3 (0 : Fin 1) m j) := by
  refine broadcastTo_apply v h (ix3 i m j) (ix3 (0 : Fin 1) m j) fun ax => ?_
  match ax with
  | ⟨0, _⟩ => rfl
  | ⟨1, _⟩ =>
    show m.val = if b = 1 then 0 else m.val
    rw [if_neg hb]
  | ⟨2, _⟩ =>
    show j.val = if c = 1 then 0 else j.val
    rw [if_neg hc]

/-- A `[1, 1, c]` array broadcast to `[a, b, c]` reads, at `(i, m, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (hc : c ≠ 1)
    (i : Fin a) (m : Fin b) (j : Fin c) :
    broadcastTo ⟨3, ![a, b, c]⟩ v h (ix3 i m j) = v (ix3 (0 : Fin 1) (0 : Fin 1) j) := by
  refine broadcastTo_apply v h (ix3 i m j) (ix3 (0 : Fin 1) (0 : Fin 1) j) fun ax => ?_
  match ax with
  | ⟨0, _⟩ => rfl
  | ⟨1, _⟩ => rfl
  | ⟨2, _⟩ =>
    show j.val = if c = 1 then 0 else j.val
    rw [if_neg hc]

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (i : Fin a) (m : Fin b) :
    broadcastTo ⟨2, ![a, b]⟩ v h (ix2 i m) = v (ix2 (0 : Fin 1) (0 : Fin 1)) := by
  refine broadcastTo_apply v h (ix2 i m) (ix2 (0 : Fin 1) (0 : Fin 1)) fun ax => ?_
  match ax with
  | ⟨0, _⟩ => rfl
  | ⟨1, _⟩ => rfl

end Layout

/-! ## The body's three sums, read at coordinates -/

section Sums

/-- A sum over the last axis of an `[a, b, c]` array, at `(i, m)`: the sum over the last coordinate. -/
theorem sumLast3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (m : Fin b) :
    multiReduction (F := Ideal) .add [2] ⟨2, ![a, b]⟩ src 0x00000000#32 h hφ hacc (ix2 i m)
      = ∑ j : Fin c, src (ix3 i m j) := by
  refine (Ideal.multiReduction_add_single src 0x00000000#32 h hφ hacc (ix2 i m)).trans ?_
  refine Finset.sum_congr rfl fun j _ => congrArg src ?_
  funext ax
  match ax with
  | ⟨0, _⟩ => rfl
  | ⟨1, _⟩ => rfl
  | ⟨2, _⟩ => rfl

/-- A sum over the last axis of an `[a, b]` array, at `i`: the sum over the last coordinate. -/
theorem sumLast2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i)
      = ∑ m : Fin b, src (ix2 i m) := by
  refine (Ideal.multiReduction_add_single src 0x00000000#32 h hφ hacc (ix1 i)).trans ?_
  refine Finset.sum_congr rfl fun m _ => congrArg src ?_
  funext ax
  match ax with
  | ⟨0, _⟩ => rfl
  | ⟨1, _⟩ => rfl

/-- A sum over the first axis of an `[a, 1]` array, at its one index: the sum over the first coordinate. -/
theorem sumFirst2_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction (F := Ideal) .add [0] ⟨1, ![1]⟩ src 0x00000000#32 h hφ hacc (ix1 u)
      = ∑ i : Fin a, src (ix2 i u) := by
  refine (Ideal.multiReduction_add_single src 0x00000000#32 h hφ hacc (ix1 u)).trans ?_
  refine Finset.sum_congr rfl fun i _ => congrArg src ?_
  funext ax
  match ax with
  | ⟨0, _⟩ => rfl
  | ⟨1, _⟩ => rfl

end Sums

/-! ## The diagonal test on words -/

section Diagonal

/-- With tile numbers below 8 and in-tile coordinates below 64 nothing wraps at 32 bits: the word `a * 64 + r` has
    the value `64 a + r`. -/
theorem globalWord_toNat (a r : Nat) (ha : a < 8) (hr : r < 64) :
    (BitVec.ofNat 32 a * 64#32 + BitVec.ofNat 32 r).toNat = 64 * a + r := by
  simp only [BitVec.toNat_add, BitVec.toNat_mul, BitVec.toNat_ofNat]
  omega

/-- So the equality test of two such words is the equality of the global row and column numbers. -/
theorem diagWord_eq (a b r c : Nat) (ha : a < 8) (hb : b < 8) (hr : r < 64) (hc : c < 64) :
    IntOp.cmpi .eq (IntOp.addi (Scalar.muli (BitVec.ofNat 32 a) 64#32) (BitVec.ofNat 32 r))
        (IntOp.addi (Scalar.muli (BitVec.ofNat 32 b) 64#32) (BitVec.ofNat 32 c))
      = if 64 * a + r = 64 * b + c then 1#1 else 0#1 := by
  show BitVec.ofBool (BitVec.ofNat 32 a * 64#32 + BitVec.ofNat 32 r == BitVec.ofNat 32 b * 64#32 + BitVec.ofNat 32 c) = _
  by_cases h : 64 * a + r = 64 * b + c
  · rw [if_pos h]
    have e : BitVec.ofNat 32 a * 64#32 + BitVec.ofNat 32 r = BitVec.ofNat 32 b * 64#32 + BitVec.ofNat 32 c :=
      BitVec.eq_of_toNat_eq (by rw [globalWord_toNat a r ha hr, globalWord_toNat b c hb hc, h])
    rw [e, beq_self_eq_true]; rfl
  · rw [if_neg h]
    have e : BitVec.ofNat 32 a * 64#32 + BitVec.ofNat 32 r ≠ BitVec.ofNat 32 b * 64#32 + BitVec.ofNat 32 c := by
      intro e; apply h; rw [← globalWord_toNat a r ha hr, ← globalWord_toNat b c hb hc, e]
    rw [beq_eq_false_iff_ne.mpr e]; rfl

/-- The body's diagonal mask at `(r, cc)` of the tile at grid coordinates `(a, b)`. -/
theorem diagMask_apply (a b : Nat) (ha : a < 8) (hb : b < 8) (r cc : Fin 64) :
    cmpi .eq (addi (broadcast S64x64 (Scalar.muli (BitVec.ofNat 32 a) 64#32)) (iota .tc S64x64 32 [0] iota_S64x64_d0_w32))
        (addi (broadcast S64x64 (Scalar.muli (BitVec.ofNat 32 b) 64#32)) (iota .tc S64x64 32 [1] iota_S64x64_d1_w32))
        (ix2 r cc)
      = if 64 * a + r.val = 64 * b + cc.val then 1#1 else 0#1 := by
  refine Eq.trans ?_ (diagWord_eq a b r.val cc.val ha hb r.isLt cc.isLt)
  show IntOp.cmpi .eq (IntOp.addi _ (iota .tc S64x64 32 [0] iota_S64x64_d0_w32 (ix2 r cc)))
      (IntOp.addi _ (iota .tc S64x64 32 [1] iota_S64x64_d1_w32 (ix2 r cc))) = _
  rw [iota_single_apply, iota_single_apply]
  rfl

end Diagonal

/-! ## The pieces of the body at coordinates -/

section Pieces

/-- The zero splat reads zero. -/
theorem zeroSplat_apply {s : Shape} (i : s.Idx) :
    broadcast s (Scalar.ofBits (F := Ideal) .f32 0x00000000#32) i = (0 : EReal) := Ideal.ofBits_zero_f32

/-- A `[64, 128]` block laid along the first axis of the `[64, 64, 128]` cube: row `r` at every middle coordinate. -/
theorem alongFirst_apply (x : Vec Ideal S64x128 .f32) (r cc : Fin 64) (h : Fin 128) :
    broadcastTo S64x64x128
        (shapeCast S64x1x128 (shapeCast S64x128 x shapeCasts_S64x128_S64x128) shapeCasts_S64x128_S64x1x128)
        broadcasts_S64x1x128_S64x64x128 (ix3 r cc h) = x (ix2 r h) := by
  refine (broadcastTo_a1c_abc_apply _ _ (by decide) (by decide) r cc h).trans ?_
  refine (shapeCast_ac_a1c_apply _ _ r (0 : Fin 1) h).trans ?_
  rw [shapeCast_self]

/-- A `[64, 128]` block laid along the middle axis of the cube: row `cc` at every first coordinate. -/
theorem alongMiddle_apply (x : Vec Ideal S64x128 .f32) (r cc : Fin 64) (h : Fin 128) :
    broadcastTo S64x64x128
        (shapeCast S1x64x128 (shapeCast S64x128 x shapeCasts_S64x128_S64x128) shapeCasts_S64x128_S1x64x128)
        broadcasts_S1x64x128_S64x64x128 (ix3 r cc h) = x (ix2 cc h) := by
  refine (broadcastTo_1bc_abc_apply _ _ (by decide) (by decide) r cc h).trans ?_
  refine (shapeCast_ab_1ab_apply _ _ (0 : Fin 1) cc h).trans ?_
  rw [shapeCast_self]

/-- The output unit's weights over the cube: lane `h` of the one row, everywhere. -/
theorem weights_apply (x4 : Vec Ideal S1x128 .f32) (r cc : Fin 64) (h : Fin 128) :
    broadcastTo S64x64x128 (k0_pay3 (F := Ideal) x4) broadcasts_S1x1x128_S64x64x128 (ix3 r cc h)
      = x4 (ix2 (0 : Fin 1) h) := by
  refine (broadcastTo_11c_abc_apply _ _ (by decide) r cc h).trans ?_
  unfold k0_pay3
  refine (shapeCast_ab_1ab_apply _ _ (0 : Fin 1) (0 : Fin 1) h).trans ?_
  rw [shapeCast_self]

/-- The hidden layer of the pair `(r, cc)` at unit `h`: the rectified sum of the two rows' shares. -/
theorem hidden_apply (xa xb : Vec Ideal S64x128 .f32) (r cc : Fin 64) (h : Fin 128) :
    k0_pay6 (F := Ideal) xa xb (ix3 r cc h) = max (xa (ix2 r h) + xb (ix2 cc h)) 0 := by
  unfold k0_pay6
  refine (maximumf_apply _ _ _).trans ?_
  refine congrArg₂ max ?_ (zeroSplat_apply _)
  refine (addf_apply _ _ _).trans ?_
  exact congrArg₂ (· + ·) (alongFirst_apply xa r cc h) (alongMiddle_apply xb r cc h)

/-- A pair's score from its hidden activations and the output unit: the logistic of the weighted sum over the hidden
    units plus the bias. -/
theorem scoreOf_apply (hid wts : FVec Ideal S64x64x128 .f32) (bias : FVec Ideal S1x1 .f32) (r cc : Fin 64) :
    logistic (addf (multiReduction .add [2] S64x64 (mulf hid wts) 0x00000000#32 reduces_S64x64x128_S64x64 (.inl rfl) rfl)
        (broadcastTo S64x64 bias broadcasts_S1x1_S64x64)) (ix2 r cc)
      = Ideal.logistic ((∑ h : Fin 128, hid (ix3 r cc h) * wts (ix3 r cc h)) + bias (ix2 (0 : Fin 1) (0 : Fin 1))) := by
  show Ideal.logistic (_ + _) = _
  refine congrArg Ideal.logistic ?_
  exact congrArg₂ (· + ·) (sumLast3_apply _ _ _ _ r cc) (broadcastTo_11_ab_apply _ _ r cc)

end Pieces

/-! ## The two scores, the mask, and the fold to one entry -/

section Assembly

/-- The teacher's score of the pair `(r, cc)`. -/
theorem teacherScore_apply (x0 x1 : Vec Ideal S64x128 .f32) (x4 : Vec Ideal S1x128 .f32) (x5 : Vec Ideal S1x1 .f32)
    (r cc : Fin 64) :
    k0_pay5 (F := Ideal) x0 x1 x4 x5 (ix2 r cc)
      = Ideal.logistic ((∑ h : Fin 128, max (x0 (ix2 r h) + x1 (ix2 cc h)) 0 * x4 (ix2 (0 : Fin 1) h))
          + x5 (ix2 (0 : Fin 1) (0 : Fin 1))) := by
  unfold k0_pay5 k0_pay4
  refine (scoreOf_apply _ _ _ r cc).trans ?_
  refine congrArg Ideal.logistic (congrArg₂ (· + ·) (Finset.sum_congr rfl fun h _ => ?_) ?_)
  · refine congrArg₂ (· * ·) ?_ (weights_apply x4 r cc h)
    exact hidden_apply x0 x1 r cc h
  · rw [shapeCast_self]

/-- The student's score of the pair `(r, cc)`, from the hidden activations and weights the body carries. -/
theorem studentScore_apply (x2 x3 : Vec Ideal S64x128 .f32) (x4 : Vec Ideal S1x128 .f32) (x5 : Vec Ideal S1x1 .f32)
    (r cc : Fin 64) :
    logistic (addf (multiReduction .add [2] S64x64 (mulf (k0_pay6 (F := Ideal) x2 x3) (k0_pay7 x4)) 0x00000000#32
          reduces_S64x64x128_S64x64 (.inl rfl) rfl)
        (broadcastTo S64x64 (k0_pay4 x5) broadcasts_S1x1_S64x64)) (ix2 r cc)
      = Ideal.logistic ((∑ h : Fin 128, max (x2 (ix2 r h) + x3 (ix2 cc h)) 0 * x4 (ix2 (0 : Fin 1) h))
          + x5 (ix2 (0 : Fin 1) (0 : Fin 1))) := by
  refine (scoreOf_apply _ _ _ r cc).trans ?_
  refine congrArg Ideal.logistic (congrArg₂ (· + ·) (Finset.sum_congr rfl fun h _ => ?_) ?_)
  · refine congrArg₂ (· * ·) (hidden_apply x2 x3 r cc h) ?_
    unfold k0_pay7
    exact weights_apply x4 r cc h
  · unfold k0_pay4
    rw [shapeCast_self]

/-- A score masked on the diagonal: zero where the global row and column numbers agree. -/
theorem masked_apply (a b : Nat) (ha : a < 8) (hb : b < 8) (s : FVec Ideal S64x64 .f32) (r cc : Fin 64) :
    select (cmpi .eq (addi (broadcast S64x64 (Scalar.muli (BitVec.ofNat 32 a) 64#32)) (iota .tc S64x64 32 [0] iota_S64x64_d0_w32))
          (addi (broadcast S64x64 (Scalar.muli (BitVec.ofNat 32 b) 64#32)) (iota .tc S64x64 32 [1] iota_S64x64_d1_w32)))
        (broadcast S64x64 (Scalar.ofBits (F := Ideal) .f32 0x00000000#32)) s (ix2 r cc)
      = if 64 * a + r.val = 64 * b + cc.val then 0 else s (ix2 r cc) := by
  refine (select_apply _ _ _ _).trans ?_
  rw [diagMask_apply a b ha hb r cc]
  by_cases h : 64 * a + r.val = 64 * b + cc.val
  · rw [if_pos h, if_pos h, select_one]; exact zeroSplat_apply _
  · rw [if_neg h, if_neg h, select_zero]

/-- The fold of a `[64, 64]` array down to one entry: the double sum over its coordinates. -/
theorem total_apply (sq : FVec Ideal S64x64 .f32) :
    shapeCast S1x1
        (multiReduction .add [0] S1
          (shapeCast S64x1 (multiReduction .add [1] S64 sq 0x00000000#32 reduces_S64x64_S64 (.inl rfl) rfl)
            shapeCasts_S64_S64x1)
          0x00000000#32 reduces_S64x1_S1 (.inl rfl) rfl)
        shapeCasts_S1_S1x1 (ix2 (0 : Fin 1) (0 : Fin 1))
      = ∑ r : Fin 64, ∑ cc : Fin 64, sq (ix2 r cc) := by
  refine (shapeCast_a_1a_apply _ _ (0 : Fin 1) (0 : Fin 1)).trans ?_
  refine (sumFirst2_apply _ _ _ _ (0 : Fin 1)).trans ?_
  refine Finset.sum_congr rfl fun r _ => ?_
  refine (shapeCast_a_a1_apply _ _ r (0 : Fin 1)).trans ?_
  exact sumLast2_apply _ _ _ _ r

end Assembly

/-- The stored zero is zero. -/
theorem zeroAcc_apply : (zeroAcc (F := Ideal) : S1x1.Idx → EReal) (ix2 (0 : Fin 1) (0 : Fin 1)) = 0 := by
  unfold zeroAcc k0_pay2
  rw [shapeCast_self]
  exact zeroSplat_apply _

/-- The update adds the tile's sum of squared score differences. -/
theorem step_apply (i : grid0.Coords) (x0 x1 x2 x3 : Vec Ideal S64x128 .f32) (x4 : Vec Ideal S1x128 .f32)
    (x5 : Vec Ideal S1x1 .f32) (acc : Vec Ideal S1x1 .f32) :
    (step (F := Ideal) i x0 x1 x2 x3 x4 x5 acc : S1x1.Idx → EReal) (ix2 (0 : Fin 1) (0 : Fin 1))
      = acc (ix2 (0 : Fin 1) (0 : Fin 1)) + ∑ r : Fin 64, ∑ cc : Fin 64,
          pairSq (fun h => x0 (ix2 r h)) (fun h => x1 (ix2 cc h)) (fun h => x2 (ix2 r h)) (fun h => x3 (ix2 cc h))
            (fun h => x4 (ix2 (0 : Fin 1) h)) (x5 (ix2 (0 : Fin 1) (0 : Fin 1)))
            (64 * (i 0).val + r.val = 64 * (i 1).val + cc.val) := by
  have ha : (i 0).val < 8 := (i 0).isLt
  have hb : (i 1).val < 8 := (i 1).isLt
  unfold step k0_pay1
  refine (congrFun (shapeCast_self _ _) _).trans ?_
  refine (addf_apply _ _ _).trans ?_
  refine congrArg (acc (ix2 (0 : Fin 1) (0 : Fin 1)) + ·) ?_
  refine (total_apply _).trans ?_
  refine Finset.sum_congr rfl fun r _ => Finset.sum_congr rfl fun cc _ => ?_
  refine (mulf_apply _ _ _).trans ?_
  have hd : ∀ (S T : EReal), S = (if 64 * (i 0).val + r.val = 64 * (i 1).val + cc.val then 0 else
        Ideal.logistic ((∑ h : Fin 128, max (x2 (ix2 r h) + x3 (ix2 cc h)) 0 * x4 (ix2 (0 : Fin 1) h))
          + x5 (ix2 (0 : Fin 1) (0 : Fin 1)))) →
      T = (if 64 * (i 0).val + r.val = 64 * (i 1).val + cc.val then 0 else
        Ideal.logistic ((∑ h : Fin 128, max (x0 (ix2 r h) + x1 (ix2 cc h)) 0 * x4 (ix2 (0 : Fin 1) h))
          + x5 (ix2 (0 : Fin 1) (0 : Fin 1)))) →
      (S - T) * (S - T) = pairSq (fun h => x0 (ix2 r h)) (fun h => x1 (ix2 cc h)) (fun h => x2 (ix2 r h))
        (fun h => x3 (ix2 cc h)) (fun h => x4 (ix2 (0 : Fin 1) h)) (x5 (ix2 (0 : Fin 1) (0 : Fin 1)))
        (64 * (i 0).val + r.val = 64 * (i 1).val + cc.val) := by
    intro S T hS hT
    rw [hS, hT]
    rfl
  refine hd _ _ ?_ ?_
  · refine (masked_apply _ _ ha hb _ r cc).trans ?_
    exact congrArg (fun z => if 64 * (i 0).val + r.val = 64 * (i 1).val + cc.val then (0 : EReal) else z)
      (studentScore_apply x2 x3 x4 x5 r cc)
  · refine (masked_apply _ _ ha hb _ r cc).trans ?_
    exact congrArg (fun z => if 64 * (i 0).val + r.val = 64 * (i 1).val + cc.val then (0 : EReal) else z)
      (teacherScore_apply x0 x1 x4 x5 r cc)

end Cert.KernelIdeal.Step

end
-- ==== Proof.KBlocks.lean ====
/-
  The six input blocks of a grid point, read at an index. The grid is 8 x 8, point `t` at coordinates (t / 8, t % 8).
  The first-row shares are staged in 64-row blocks indexed by the first coordinate, the second-row shares by the second;
  the output unit's weights and bias are staged whole at every point.
-/
import proofs.«177132_j47674136986059_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ) (c : Dev nD)

/-- The input blocks of point `t`, at their literal types. -/
abbrev blk0 (t : Fin cfg0.N) : Vec F S64x128 .f32 := iblk m c 0 t
abbrev blk1 (t : Fin cfg0.N) : Vec F S64x128 .f32 := iblk m c 1 t
abbrev blk2 (t : Fin cfg0.N) : Vec F S64x128 .f32 := iblk m c 2 t
abbrev blk3 (t : Fin cfg0.N) : Vec F S64x128 .f32 := iblk m c 3 t
abbrev blk4 (t : Fin cfg0.N) : Vec F S1x128 .f32 := iblk m c 4 t
abbrev blk5 (t : Fin cfg0.N) : Vec F S1x1 .f32 := iblk m c 5 t

/-- The arrays the region finds, at their literal types. -/
abbrev arr13 : Vec F S512x128 .f32 := V m c main_v13
abbrev arr14 : Vec F S512x128 .f32 := V m c main_v14
abbrev arr18 : Vec F S512x128 .f32 := V m c main_v18
abbrev arr19 : Vec F S512x128 .f32 := V m c main_v19
abbrev arr20 : Vec F S1x128 .f32 := V m c main_v20
abbrev arr21 : Vec F S1x1 .f32 := V m c main_v21

/-- The block index of every input window on both axes, at each of the 64 points: windows 0 and 2 move with the
    point's quotient by 8, windows 1 and 3 with its remainder, windows 4 and 5 stay at the origin; the second axis
    is never split. A finite check over the points. -/
theorem index_of_point : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = t.val % 8 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The 8 x 8 grid is walked row by row: point `t` has coordinates (t / 8, t % 8). A finite check over the points. -/
theorem coords_of_point : ∀ t : Fin cfg0.N,
    (grid0.coords t (0 : Fin 2)).val = t.val / 8 ∧ (grid0.coords t (1 : Fin 2)).val = t.val % 8 :=
  (by decide +kernel : ∀ t : Fin grid0.N, _)

/-- Point `t`'s first grid coordinate. -/
theorem coords0 (t : Fin cfg0.N) : (grid0.coords t 0).val = t.val / 8 := (coords_of_point t).1
/-- Point `t`'s second grid coordinate. -/
theorem coords1 (t : Fin cfg0.N) : (grid0.coords t 1).val = t.val % 8 := (coords_of_point t).2

/-- A row index of a 512-row array from a block number below 8 and a row inside the block. -/
def row (b : Nat) (hb : b < 8) (r : Fin 64) : Fin 512 := ⟨64 * b + r.val, by have := r.isLt; omega⟩

theorem tdiv_lt (t : Fin cfg0.N) : t.val / 8 < 8 := by
  have h : t.val < 64 := lt_of_lt_of_eq t.isLt (show cfg0.N = 64 from N_0); omega
theorem tmod_lt (t : Fin cfg0.N) : t.val % 8 < 8 := Nat.mod_lt _ (by decide)

theorem blk0_apply (t : Fin cfg0.N) (r : Fin 64) (h : Fin 128) :
    blk0 m c t (ix2 r h) = arr13 m c (ix2 (row (t.val / 8) (tdiv_lt t) r) h) := by
  have hi := (index_of_point t).1
  unfold blk0 arr13 iblk
  rw [View.read_apply]
  show V m c main_v13 _ = V m c main_v13 _
  congr 1
  funext a
  apply Fin.ext
  match a with
  | ⟨0, _⟩ =>
    -- rows: block number times 64 plus the row inside the block
    show win0_0.index t 0 * 64 + 1 * r.val = 64 * (t.val / 8) + r.val
    rw [hi.1]; omega
  | ⟨1, _⟩ =>
    -- columns: the block spans all 128
    show win0_0.index t 1 * 128 + 1 * h.val = h.val
    rw [hi.2]; omega
theorem blk1_apply (t : Fin cfg0.N) (r : Fin 64) (h : Fin 128) :
    blk1 m c t (ix2 r h) = arr14 m c (ix2 (row (t.val % 8) (tmod_lt t) r) h) := by
  have hi := (index_of_point t).2.1
  unfold blk1 arr14 iblk
  rw [View.read_apply]
  show V m c main_v14 _ = V m c main_v14 _
  congr 1
  funext a
  apply Fin.ext
  match a with
  | ⟨0, _⟩ =>
    -- rows: block number times 64 plus the row inside the block
    show win0_1.index t 0 * 64 + 1 * r.val = 64 * (t.val % 8) + r.val
    rw [hi.1]; omega
  | ⟨1, _⟩ =>
    -- columns: the block spans all 128
    show win0_1.index t 1 * 128 + 1 * h.val = h.val
    rw [hi.2]; omega
theorem blk2_apply (t : Fin cfg0.N) (r : Fin 64) (h : Fin 128) :
    blk2 m c t (ix2 r h) = arr18 m c (ix2 (row (t.val / 8) (tdiv_lt t) r) h) := by
  have hi := (index_of_point t).2.2.1
  unfold blk2 arr18 iblk
  rw [View.read_apply]
  show V m c main_v18 _ = V m c main_v18 _
  congr 1
  funext a
  apply Fin.ext
  match a with
  | ⟨0, _⟩ =>
    -- rows: block number times 64 plus the row inside the block
    show win0_2.index t 0 * 64 + 1 * r.val = 64 * (t.val / 8) + r.val
    rw [hi.1]; omega
  | ⟨1, _⟩ =>
    -- columns: the block spans all 128
    show win0_2.index t 1 * 128 + 1 * h.val = h.val
    rw [hi.2]; omega
theorem blk3_apply (t : Fin cfg0.N) (r : Fin 64) (h : Fin 128) :
    blk3 m c t (ix2 r h) = arr19 m c (ix2 (row (t.val % 8) (tmod_lt t) r) h) := by
  have hi := (index_of_point t).2.2.2.1
  unfold blk3 arr19 iblk
  rw [View.read_apply]
  show V m c main_v19 _ = V m c main_v19 _
  congr 1
  funext a
  apply Fin.ext
  match a with
  | ⟨0, _⟩ =>
    -- rows: block number times 64 plus the row inside the block
    show win0_3.index t 0 * 64 + 1 * r.val = 64 * (t.val % 8) + r.val
    rw [hi.1]; omega
  | ⟨1, _⟩ =>
    -- columns: the block spans all 128
    show win0_3.index t 1 * 128 + 1 * h.val = h.val
    rw [hi.2]; omega
theorem blk4_apply (t : Fin cfg0.N) (h : Fin 128) :
    blk4 m c t (ix2 (0 : Fin 1) h) = arr20 m c (ix2 (0 : Fin 1) h) := by
  have hi := (index_of_point t).2.2.2.2.1
  unfold blk4 arr20 iblk
  rw [View.read_apply]
  show V m c main_v20 _ = V m c main_v20 _
  congr 1
  funext a
  apply Fin.ext
  match a with
  | ⟨0, _⟩ =>
    show win0_4.index t 0 * 1 + 1 * (0 : Fin 1).val = (0 : Fin 1).val
    rw [hi.1]; omega
  | ⟨1, _⟩ =>
    show win0_4.index t 1 * 128 + 1 * h.val = h.val
    rw [hi.2]; omega
theorem blk5_apply (t : Fin cfg0.N) :
    blk5 m c t (ix2 (0 : Fin 1) (0 : Fin 1)) = arr21 m c (ix2 (0 : Fin 1) (0 : Fin 1)) := by
  have hi := (index_of_point t).2.2.2.2.2
  unfold blk5 arr21 iblk
  rw [View.read_apply]
  show V m c main_v21 _ = V m c main_v21 _
  congr 1
  funext a
  apply Fin.ext
  match a with
  | ⟨0, _⟩ =>
    show win0_5.index t 0 * 1 + 1 * (0 : Fin 1).val = (0 : Fin 1).val
    rw [hi.1]; omega
  | ⟨1, _⟩ =>
    show win0_5.index t 1 * 1 + 1 * (0 : Fin 1).val = (0 : Fin 1).val
    rw [hi.2]; omega

end Cert.KernelIdeal.Blocks

end
-- ==== Proof.KAcc.lean ====
/-
  The running total across the grid. The carried accumulator after the first point is the step over the stored zero;
  after every later point it is the step over what the point before left; so, read at its one entry at the ideal
  instance, after point n it is the sum of the first n + 1 tile sums. The last point copies that total into the output
  block.
-/
import proofs.«177132_j47674136986059_1_alg».proof.Proof.KPieces
import proofs.«177132_j47674136986059_1_alg».proof.Proof.KStepIdeal
import proofs.«177132_j47674136986059_1_alg».proof.Proof.KBlocks
import Mathlib.Algebra.BigOperators.Intervals

set_option maxRecDepth 16384

noncomputable section

namespace Cert.KernelIdeal.RunValue

open Idealize.ShloMosaic Idealize.ShloMosaic.TcCoe Idealize.SL.Sem Idealize.ShloMosaic.ValueIdx
open Cert.KernelIdeal Cert.KernelIdeal.Gen Cert.KernelIdeal.Step Cert.KernelIdeal.Blocks Cert.PairRel

variable (m : (ℓ : Loc nD τ sig) → Buf (Elt Ideal) ℓ) (c : Dev nD)

theorem N64 : cfg0.N = 64 := N_0

/-- The first point: the step over the stored zero. -/
theorem acc_first (t : Fin cfg0.N) (h0 : t.val % 64 = 0) :
    (outsAt0 m c t.val t.isLt).2 = step (grid0.coords t) (blk0 m c t) (blk1 m c t) (blk2 m c t) (blk3 m c t) (blk4 m c t) (blk5 m c t) zeroAcc := by
  have hN : t.val < 64 := lt_of_lt_of_eq t.isLt N64
  have h1 : ¬t.val % 64 = 63 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t)

/-- A later point: the step over what the point before left; the last point also leaves it in the output block. -/
theorem acc_later (t : Fin cfg0.N) (h0 : ¬t.val % 64 = 0) :
    (outsAt0 m c t.val t.isLt).2
      = step (grid0.coords t) (blk0 m c t) (blk1 m c t) (blk2 m c t) (blk3 m c t) (blk4 m c t) (blk5 m c t)
          (outsAt0 m c (t.val - 1) (Nat.lt_of_le_of_lt (Nat.sub_le _ _) t.isLt)).2 := by
  by_cases h1 : t.val % 64 = 63
  · rw [outsAt0_C m c t h0 h1]
    dsimp only
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2
  · rw [outsAt0_B m c t h0 h1]
    dsimp only
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2

/-- At the last point the output block receives the accumulator's new contents. -/
theorem out_last (t : Fin cfg0.N) (h1 : t.val % 64 = 63) :
    (outsAt0 m c t.val t.isLt).1 = (outsAt0 m c t.val t.isLt).2 := by
  have h0 : ¬t.val % 64 = 0 := by omega
  rw [outsAt0_C m c t h0 h1]
  dsimp only
  exact (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2).trans
    (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2).symm

/-- The sum over the tile of grid point `t` of the squared score differences, from the point's blocks. -/
def tileK (t : Fin cfg0.N) : EReal :=
  ∑ r : Fin 64, ∑ cc : Fin 64,
    pairSq (fun h => blk0 m c t (ix2 r h)) (fun h => blk1 m c t (ix2 cc h)) (fun h => blk2 m c t (ix2 r h))
      (fun h => blk3 m c t (ix2 cc h)) (fun h => blk4 m c t (ix2 (0 : Fin 1) h))
      (blk5 m c t (ix2 (0 : Fin 1) (0 : Fin 1)))
      (64 * (grid0.coords t 0).val + r.val = 64 * (grid0.coords t 1).val + cc.val)

/-- The same indexed by a natural number, zero past the grid. -/
def tileN (n : ℕ) : EReal := if h : n < cfg0.N then tileK m c ⟨n, h⟩ else 0

/-- The accumulator's entry after point `n` is the sum of the first `n + 1` tile sums. -/
theorem acc_eq_sum : ∀ (n : ℕ) (hn : n < cfg0.N),
    ((outsAt0 m c n hn).2 : S1x1.Idx → EReal) (ix2 (0 : Fin 1) (0 : Fin 1)) = ∑ t ∈ Finset.range (n + 1), tileN m c t
  | 0, hn => by
    have e := acc_first m c ⟨0, hn⟩ rfl
    have e' : (outsAt0 m c 0 hn).2 = step (grid0.coords ⟨0, hn⟩) (blk0 m c ⟨0, hn⟩) (blk1 m c ⟨0, hn⟩) (blk2 m c ⟨0, hn⟩) (blk3 m c ⟨0, hn⟩) (blk4 m c ⟨0, hn⟩) (blk5 m c ⟨0, hn⟩) zeroAcc := e
    rw [e', step_apply, zeroAcc_apply, zero_add, Finset.sum_range_one]
    unfold tileN
    rw [dif_pos hn]
    rfl
  | n + 1, hn => by
    have hN : n + 1 < 64 := lt_of_lt_of_eq hn (N64)
    have h0 : ¬(⟨n + 1, hn⟩ : Fin cfg0.N).val % 64 = 0 := by
      show ¬(n + 1) % 64 = 0
      omega
    have e := acc_later m c ⟨n + 1, hn⟩ h0
    have e' : (outsAt0 m c (n + 1) hn).2 = step (grid0.coords ⟨n + 1, hn⟩) (blk0 m c ⟨n + 1, hn⟩) (blk1 m c ⟨n + 1, hn⟩) (blk2 m c ⟨n + 1, hn⟩) (blk3 m c ⟨n + 1, hn⟩) (blk4 m c ⟨n + 1, hn⟩) (blk5 m c ⟨n + 1, hn⟩)
        (outsAt0 m c n (Nat.lt_of_succ_lt hn)).2 := e
    rw [e', step_apply, acc_eq_sum n (Nat.lt_of_succ_lt hn), Finset.sum_range_succ _ (n + 1)]
    congr 1
    unfold tileN
    rw [dif_pos hn]
    rfl

end Cert.KernelIdeal.RunValue

end
-- ==== Proof.KHost.lean ====
/-
  The arrays the region finds, read at an index (at the ideal instance): the host lines before the pallas_call compute
  the two projections, multiply each by the two halves of W1 (adding b1 to the first product), and re-lay W2 as a row
  and b2 as a 1 x 1 array.
-/
import proofs.«177132_j47674136986059_1_alg».proof.Proof.Gen.KernelIdeal.Frame
import proofs.«177132_j47674136986059_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostValue

open Idealize.ShloMosaic Idealize.ShloMosaic.TcCoe Idealize.SL.Sem Idealize.ShloMosaic.ValueIdx
open Cert.KernelIdeal Cert.KernelIdeal.Gen Cert.PairRel

variable (m : (ℓ : Loc nD τ sig) → Buf (Elt Ideal) ℓ) (c : Dev nD)

/-- The ten argument arrays on core `c`, at their literal types. -/
abbrev aX : A2 512 2048 := m ((c.tc : Thread nD τ).loc main_arg0)
abbrev aY : A2 512 768 := m ((c.tc : Thread nD τ).loc main_arg1)
abbrev aWt : A2 2048 128 := m ((c.tc : Thread nD τ).loc main_arg2)
abbrev abt : A1 128 := m ((c.tc : Thread nD τ).loc main_arg3)
abbrev aWs : A2 768 128 := m ((c.tc : Thread nD τ).loc main_arg4)
abbrev abs : A1 128 := m ((c.tc : Thread nD τ).loc main_arg5)
abbrev aW1 : A2 256 128 := m ((c.tc : Thread nD τ).loc main_arg6)
abbrev ab1 : A1 128 := m ((c.tc : Thread nD τ).loc main_arg7)
abbrev aW2 : A2 128 1 := m ((c.tc : Thread nD τ).loc main_arg8)
abbrev ab2 : A1 1 := m ((c.tc : Thread nD τ).loc main_arg9)

/-! ## The host lines as terms of the argument arrays -/

/-- A bias vector laid along every row of a 512 x 128 array (through a 1 x 128 row). -/
def rowBias (b : A1 128) : A2 512 128 :=
  broadcastInDim S512x128 ![0, 1] bcast_S1x128_S512x128_0_1 (broadcastInDim S1x128 ![1] bcast_S128_S1x128_1 b)

/-- The first 128 rows of a 256 x 128 matrix. -/
def rowsLo (W1 : A2 256 128) : A2 128 128 := extractStridedSlice S128x128 ![0, 0] W1 slices_S256x128_S128x128_0_0
/-- The last 128 rows of a 256 x 128 matrix. -/
def rowsHi (W1 : A2 256 128) : A2 128 128 := extractStridedSlice S128x128 ![128, 0] W1 slices_S256x128_S128x128_128_0

/-- A projection as the host computes it: the contraction of X with W, plus the bias along the rows. -/
def hostLin {K : Nat} (D : DotDims ⟨2, ![512, K]⟩ ⟨2, ![K, 128]⟩ S512x128) (X : A2 512 K) (W : A2 K 128) (b : A1 128) : A2 512 128 :=
  addf (F := Ideal) (φ := .f32) (Host.dotGeneral (F := Ideal) (φ₁ := .f32) (φ₂ := .f32) D none X W) (rowBias b)

/-- A projection times the first half of W1, plus the bias b1 along the rows. -/
def hostA (p : A2 512 128) (W1 : A2 256 128) (b1 : A1 128) : A2 512 128 :=
  addf (F := Ideal) (φ := .f32) (Host.dotGeneral (F := Ideal) (φ₁ := .f32) (φ₂ := .f32) dot_S512x128_S128x128_S512x128_1_0_0_1_n_n none p (rowsLo W1)) (rowBias b1)

/-- A projection times the second half of W1. -/
def hostB (p : A2 512 128) (W1 : A2 256 128) : A2 512 128 :=
  Host.dotGeneral (F := Ideal) (φ₁ := .f32) (φ₂ := .f32) dot_S512x128_S128x128_S512x128_1_0_0_1_n_n none p (rowsHi W1)

theorem V13_term : (V m c main_v13 : S512x128.Idx → EReal)
    = hostA (hostLin dot_S512x2048_S2048x128_S512x128_1_0_0_1_n_n (aX m c) (aWt m c) (abt m c)) (aW1 m c) (ab1 m c) := by
  show StableHlo.after hostOps0 (fun b => m (c, b)) (Proc.devRef .tc main_v13) = _
  after_results
  rfl

theorem V14_term : (V m c main_v14 : S512x128.Idx → EReal)
    = hostB (hostLin dot_S512x2048_S2048x128_S512x128_1_0_0_1_n_n (aX m c) (aWt m c) (abt m c)) (aW1 m c) := by
  show StableHlo.after hostOps0 (fun b => m (c, b)) (Proc.devRef .tc main_v14) = _
  after_results
  rfl

theorem V18_term : (V m c main_v18 : S512x128.Idx → EReal)
    = hostA (hostLin dot_S512x768_S768x128_S512x128_1_0_0_1_n_n (aY m c) (aWs m c) (abs m c)) (aW1 m c) (ab1 m c) := by
  show StableHlo.after hostOps0 (fun b => m (c, b)) (Proc.devRef .tc main_v18) = _
  after_results
  rfl

theorem V19_term : (V m c main_v19 : S512x128.Idx → EReal)
    = hostB (hostLin dot_S512x768_S768x128_S512x128_1_0_0_1_n_n (aY m c) (aWs m c) (abs m c)) (aW1 m c) := by
  show StableHlo.after hostOps0 (fun b => m (c, b)) (Proc.devRef .tc main_v19) = _
  after_results
  rfl

theorem V20_term : (V m c main_v20 : S1x128.Idx → EReal) = shapeCast S1x128 (aW2 m c) shapeCasts_S128x1_S1x128 := by
  show StableHlo.after hostOps0 (fun b => m (c, b)) (Proc.devRef .tc main_v20) = _
  after_results
  rfl

theorem V21_term : (V m c main_v21 : S1x1.Idx → EReal) = shapeCast S1x1 (ab2 m c) shapeCasts_S1_S1x1 := by
  show StableHlo.after hostOps0 (fun b => m (c, b)) (Proc.devRef .tc main_v21) = _
  after_results
  rfl

/-! ## A contraction over one shared axis is the matrix product -/

/-- Dimension numbers that contract the left operand's columns against the right operand's rows (the four coordinate
    facts `hl0` … `hr1`): at the ideal instance entry (i, h) of the product is the sum over k of X i k * W k h. -/
theorem contraction_apply {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (X : A2 M K) (W : A2 K N) (i : Fin M) (h : Fin N) :
    Host.dotGeneral (F := Ideal) (φ₁ := .f32) (φ₂ := .f32) D none X W (ix2 i h) = ∑ k : Fin K, X (ix2 i k) * W (ix2 k h) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 i h) ((contrEquiv1 D K hr hs).symm k) = ix2 i k := funext fun a => Fin.ext (by
    match a with
    | ⟨0, _⟩ => exact hl0 _ _
    | ⟨1, _⟩ => exact (hl1 _ _).trans hk)
  have er : D.rhsIdx (ix2 i h) ((contrEquiv1 D K hr hs).symm k) = ix2 k h := funext fun a => Fin.ext (by
    match a with
    | ⟨0, _⟩ => exact (hr0 _ _).trans hk
    | ⟨1, _⟩ => exact hr1 _ _)
  rw [el, er]

/-- Left operand, row axis: the output's row. -/
theorem lhs_row_2048 (j : S512x128.Idx) (q : dot_S512x2048_S2048x128_S512x128_1_0_0_1_n_n.contr.Idx) :
    (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- Left operand, column axis: the contracted coordinate. -/
theorem lhs_col_2048 (j : S512x128.Idx) (q : dot_S512x2048_S2048x128_S512x128_1_0_0_1_n_n.contr.Idx) :
    (dot_S512x2048_S2048x128_S512x128_1_0_0_1_n_n.lhsIdx j q 1).val = (q ⟨0, by decide⟩).val :=
  dot_S512x2048_S2048x128_S512x128_1_0_0_1_n_n.lhsIdx_val_of_single rfl j q
/-- Right operand, row axis: the contracted coordinate. -/
theorem rhs_row_2048 (j : S512x128.Idx) (q : dot_S512x2048_S2048x128_S512x128_1_0_0_1_n_n.contr.Idx) :
    (dot_S512x2048_S2048x128_S512x128_1_0_0_1_n_n.rhsIdx j q 0).val = (q ⟨0, by decide⟩).val :=
  dot_S512x2048_S2048x128_S512x128_1_0_0_1_n_n.rhsIdx_val_of_single rfl j q
/-- Right operand, column axis: the output's column. -/
theorem rhs_col_2048 (j : S512x128.Idx) (q : dot_S512x2048_S2048x128_S512x128_1_0_0_1_n_n.contr.Idx) :
    (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Left operand, row axis: the output's row. -/
theorem lhs_row_768 (j : S512x128.Idx) (q : dot_S512x768_S768x128_S512x128_1_0_0_1_n_n.contr.Idx) :
    (dot_S512x768_S768x128_S512x128_1_0_0_1_n_n.lhsIdx j q 0).val = (j 0).val := by
  unfold DotDims.lhsIdx
  rw [dif_neg (show ¬(0 : Fin S512x768.rank) ∈ dot_S512x768_S768x128_S512x128_1_0_0_1_n_n.lhsBatch by decide), dif_pos (show (0 : Fin S512x768.rank) ∈ dot_S512x768_S768x128_S512x128_1_0_0_1_n_n.lhsNonContracting by decide)]
  rfl
/-- Left operand, column axis: the contracted coordinate. -/
theorem lhs_col_768 (j : S512x128.Idx) (q : dot_S512x768_S768x128_S512x128_1_0_0_1_n_n.contr.Idx) :
    (dot_S512x768_S768x128_S512x128_1_0_0_1_n_n.lhsIdx j q 1).val = (q ⟨0, by decide⟩).val :=
  dot_S512x768_S768x128_S512x128_1_0_0_1_n_n.lhsIdx_val_of_single rfl j q
/-- Right operand, row axis: the contracted coordinate. -/
theorem rhs_row_768 (j : S512x128.Idx) (q : dot_S512x768_S768x128_S512x128_1_0_0_1_n_n.contr.Idx) :
    (dot_S512x768_S768x128_S512x128_1_0_0_1_n_n.rhsIdx j q 0).val = (q ⟨0, by decide⟩).val :=
  dot_S512x768_S768x128_S512x128_1_0_0_1_n_n.rhsIdx_val_of_single rfl j q
/-- Right operand, column axis: the output's column. -/
theorem rhs_col_768 (j : S512x128.Idx) (q : dot_S512x768_S768x128_S512x128_1_0_0_1_n_n.contr.Idx) :
    (dot_S512x768_S768x128_S512x128_1_0_0_1_n_n.rhsIdx j q 1).val = (j 1).val := by
  unfold DotDims.rhsIdx
  rw [dif_neg (show ¬(1 : Fin S768x128.rank) ∈ dot_S512x768_S768x128_S512x128_1_0_0_1_n_n.rhsBatch by decide), dif_pos (show (1 : Fin S768x128.rank) ∈ dot_S512x768_S768x128_S512x128_1_0_0_1_n_n.rhsNonContracting by decide)]
  rfl

/-- Left operand, row axis: the output's row. -/
theorem lhs_row_128 (j : S512x128.Idx) (q : dot_S512x128_S128x128_S512x128_1_0_0_1_n_n.contr.Idx) :
    (dot_S512x128_S128x128_S512x128_1_0_0_1_n_n.lhsIdx j q 0).val = (j 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
/-- Left operand, column axis: the contracted coordinate. -/
theorem lhs_col_128 (j : S512x128.Idx) (q : dot_S512x128_S128x128_S512x128_1_0_0_1_n_n.contr.Idx) :
    (dot_S512x128_S128x128_S512x128_1_0_0_1_n_n.lhsIdx j q 1).val = (q ⟨0, by decide⟩).val :=
  dot_S512x128_S128x128_S512x128_1_0_0_1_n_n.lhsIdx_val_of_single rfl j q
/-- Right operand, row axis: the contracted coordinate. -/
theorem rhs_row_128 (j : S512x128.Idx) (q : dot_S512x128_S128x128_S512x128_1_0_0_1_n_n.contr.Idx) :
    (dot_S512x128_S128x128_S512x128_1_0_0_1_n_n.rhsIdx j q 0).val = (q ⟨0, by decide⟩).val :=
  dot_S512x128_S128x128_S512x128_1_0_0_1_n_n.rhsIdx_val_of_single rfl j q
/-- Right operand, column axis: the output's column. -/
theorem rhs_col_128 (j : S512x128.Idx) (q : dot_S512x128_S128x128_S512x128_1_0_0_1_n_n.contr.Idx) :
    (dot_S512x128_S128x128_S512x128_1_0_0_1_n_n.rhsIdx j q 1).val = (j 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-! ## The layout lines read at an entry -/

/-- The bias laid along the rows reads, at (i, h), the bias at h. -/
theorem rowBias_apply (b : A1 128) (i : Fin 512) (h : Fin 128) : rowBias b (ix2 i h) = b (ix1 h) := by
  unfold rowBias
  refine (broadcastInDim_apply _ bcast_S1x128_S512x128_0_1 _ (ix2 i h) (ix2 (0 : Fin 1) h) (fun a => ?_)).trans
    (broadcastInDim_apply _ bcast_S128_S1x128_1 b (ix2 (0 : Fin 1) h) (ix1 h) (fun a => ?_))
  · match a with
    | ⟨0, _⟩ => show (0 : Nat) = if (1 : Nat) = 1 then 0 else i.val; rw [if_pos rfl]
    | ⟨1, _⟩ => show h.val = if (128 : Nat) = 1 then 0 else h.val; rw [if_neg (by decide)]
  · match a with
    | ⟨0, _⟩ => show h.val = if (128 : Nat) = 1 then 0 else h.val; rw [if_neg (by decide)]

/-- Row k of the first half is row `lo k` of the whole. -/
theorem rowsLo_apply (W1 : A2 256 128) (k h : Fin 128) : rowsLo W1 (ix2 k h) = W1 (ix2 (lo k) h) :=
  slice2_axis0_apply 0 W1 slices_S256x128_S128x128_0_0 k h (lo k) (Nat.zero_add _).symm

/-- Row k of the second half is row `hi k` of the whole. -/
theorem rowsHi_apply (W1 : A2 256 128) (k h : Fin 128) : rowsHi W1 (ix2 k h) = W1 (ix2 (hi k) h) :=
  slice2_axis0_apply 128 W1 slices_S256x128_S128x128_128_0 k h (hi k) rfl

/-! ## The composed lines read at an entry -/

/-- The host's projection is the specification's linear layer. -/
theorem hostLin_apply {K : Nat} (D : DotDims ⟨2, ![512, K]⟩ ⟨2, ![K, 128]⟩ S512x128) (X : A2 512 K) (W : A2 K 128) (b : A1 128)
    (hD : ∀ (i : Fin 512) (h : Fin 128),
      Host.dotGeneral (F := Ideal) (φ₁ := .f32) (φ₂ := .f32) D none X W (ix2 i h) = ∑ k : Fin K, X (ix2 i k) * W (ix2 k h))
    (i : Fin 512) (h : Fin 128) : hostLin D X W b (ix2 i h) = lin X W b i h := by
  unfold hostLin lin
  rw [addf_apply, hD, rowBias_apply]

/-- The teacher's projection, entry by entry. -/
theorem hostLin_2048 (X : A2 512 2048) (W : A2 2048 128) (b : A1 128) (i : Fin 512) (h : Fin 128) :
    hostLin dot_S512x2048_S2048x128_S512x128_1_0_0_1_n_n X W b (ix2 i h) = lin X W b i h :=
  hostLin_apply _ X W b (contraction_apply dot_S512x2048_S2048x128_S512x128_1_0_0_1_n_n rfl rfl lhs_row_2048 lhs_col_2048 rhs_row_2048 rhs_col_2048 X W) i h

/-- The student's projection, entry by entry. -/
theorem hostLin_768 (X : A2 512 768) (W : A2 768 128) (b : A1 128) (i : Fin 512) (h : Fin 128) :
    hostLin dot_S512x768_S768x128_S512x128_1_0_0_1_n_n X W b (ix2 i h) = lin X W b i h :=
  hostLin_apply _ X W b (contraction_apply dot_S512x768_S768x128_S512x128_1_0_0_1_n_n rfl rfl lhs_row_768 lhs_col_768 rhs_row_768 rhs_col_768 X W) i h

/-- A projection times the first half of W1 plus b1 is the first row's share of the hidden pre-activation. -/
theorem hostA_apply (p : A2 512 128) (f : Fin 512 → Fin 128 → EReal) (hp : ∀ i k, p (ix2 i k) = f i k)
    (W1 : A2 256 128) (b1 : A1 128) (i : Fin 512) (h : Fin 128) : hostA p W1 b1 (ix2 i h) = headA f W1 b1 i h := by
  unfold hostA headA
  rw [addf_apply, contraction_apply dot_S512x128_S128x128_S512x128_1_0_0_1_n_n rfl rfl lhs_row_128 lhs_col_128 rhs_row_128 rhs_col_128, rowBias_apply]
  refine congrArg (· + b1 (ix1 h)) (Finset.sum_congr rfl fun k _ => ?_)
  rw [hp, rowsLo_apply]

/-- A projection times the second half of W1 is the second row's share. -/
theorem hostB_apply (p : A2 512 128) (f : Fin 512 → Fin 128 → EReal) (hp : ∀ i k, p (ix2 i k) = f i k)
    (W1 : A2 256 128) (j : Fin 512) (h : Fin 128) : hostB p W1 (ix2 j h) = headB f W1 j h := by
  unfold hostB headB
  rw [contraction_apply dot_S512x128_S128x128_S512x128_1_0_0_1_n_n rfl rfl lhs_row_128 lhs_col_128 rhs_row_128 rhs_col_128]
  refine Finset.sum_congr rfl fun k _ => ?_
  rw [hp, rowsHi_apply]

/-! ## The two re-laid arrays read at an entry -/

/-- A 128 x 1 column re-laid as a 1 x 128 row: entry (0, h) of the row is entry (h, 0) of the column. -/
theorem colAsRow_apply (x : A2 128 1) (h : Fin 128) :
    shapeCast S1x128 x shapeCasts_S128x1_S1x128 (ix2 (0 : Fin 1) h) = x (ix2 h (0 : Fin 1)) :=
  shapeCast_apply x shapeCasts_S128x1_S1x128 _ _ (by
    rw [Shape.rowMajor_val_two, Shape.rowMajor_val_two]
    show h.val * 1 + 0 = 0 * 128 + h.val
    omega)

/-! ## The six arrays the region finds -/

/-- The teacher's first-row share: the projection times W1's first half, plus b1. -/
theorem V13 (i : Fin 512) (h : Fin 128) :
    (V m c main_v13 : S512x128.Idx → EReal) (ix2 i h) = headA (lin (aX m c) (aWt m c) (abt m c)) (aW1 m c) (ab1 m c) i h := by
  rw [V13_term]
  exact hostA_apply _ _ (hostLin_2048 _ _ _) _ _ i h

/-- The teacher's second-row share: the projection times W1's second half. -/
theorem V14 (j : Fin 512) (h : Fin 128) :
    (V m c main_v14 : S512x128.Idx → EReal) (ix2 j h) = headB (lin (aX m c) (aWt m c) (abt m c)) (aW1 m c) j h := by
  rw [V14_term]
  exact hostB_apply _ _ (hostLin_2048 _ _ _) _ j h

/-- The student's first-row share. -/
theorem V18 (i : Fin 512) (h : Fin 128) :
    (V m c main_v18 : S512x128.Idx → EReal) (ix2 i h) = headA (lin (aY m c) (aWs m c) (abs m c)) (aW1 m c) (ab1 m c) i h := by
  rw [V18_term]
  exact hostA_apply _ _ (hostLin_768 _ _ _) _ _ i h

/-- The student's second-row share. -/
theorem V19 (j : Fin 512) (h : Fin 128) :
    (V m c main_v19 : S512x128.Idx → EReal) (ix2 j h) = headB (lin (aY m c) (aWs m c) (abs m c)) (aW1 m c) j h := by
  rw [V19_term]
  exact hostB_apply _ _ (hostLin_768 _ _ _) _ j h

/-- W2 re-laid as a row. -/
theorem V20 (h : Fin 128) :
    (V m c main_v20 : S1x128.Idx → EReal) (ix2 (0 : Fin 1) h) = aW2 m c (ix2 h (0 : Fin 1)) := by
  rw [V20_term]
  exact colAsRow_apply _ h

/-- b2 re-laid as a 1 x 1 array. -/
theorem V21 :
    (V m c main_v21 : S1x1.Idx → EReal) (ix2 (0 : Fin 1) (0 : Fin 1)) = ab2 m c (ix1 (0 : Fin 1)) := by
  rw [V21_term]
  exact shapeCast_a_1a_apply _ shapeCasts_S1_S1x1 (0 : Fin 1) (0 : Fin 1)

end Cert.KernelIdeal.HostValue

end
-- ==== Proof.SpecSum.lean ====
/-
  The sum over all 512 x 512 pairs, regrouped by tiles. A row number below 512 is 64 b + r for a unique block b < 8
  and row r < 64 inside the block; a grid point t < 64 is 8 I + J for a unique pair of block numbers (I, J). Summing
  over rows and columns is summing over (I, r) and (J, cc); exchanging the two middle sums groups the pairs by tile
  (I, J), and the tiles are the grid points. Only commutativity and associativity of addition are used, so this holds
  on the extended reals as it stands.
-/
import proofs.«177132_j47674136986059_1_alg».proof.Proof.Spec
import Mathlib.Algebra.BigOperators.Fin
import Mathlib.Algebra.BigOperators.Group.Finset.Basic
import Mathlib.Algebra.BigOperators.Intervals

noncomputable section

namespace Cert.PairRel

open Idealize.ShloMosaic Idealize.ShloMosaic.ValueIdx

/-- `pairSq` depends on its diagonal proposition only through its truth. -/
theorem pairSq_congr (aT bT aS bS w2 : Fin 128 → EReal) (b2 : EReal) {p q : Prop} [Decidable p] [Decidable q]
    (hpq : p ↔ q) : pairSq aT bT aS bS w2 b2 p = pairSq aT bT aS bS w2 b2 q := by
  by_cases h : p
  · have hq : q := hpq.mp h
    simp only [pairSq, if_pos h, if_pos hq]
  · have hq : ¬q := fun hq => h (hpq.mpr hq)
    simp only [pairSq, if_neg h, if_neg hq]

/-- A row number as (block, row inside the block). -/
def blockRow : Fin 8 × Fin 64 ≃ Fin 512 where
  toFun p := ⟨64 * p.1.val + p.2.val, by have := p.1.isLt; have := p.2.isLt; omega⟩
  invFun i := (⟨i.val / 64, by have := i.isLt; omega⟩, ⟨i.val % 64, Nat.mod_lt _ (by decide)⟩)
  left_inv := fun ⟨a, b⟩ => by
    have ha := a.isLt
    have hb := b.isLt
    refine Prod.ext (Fin.ext ?_) (Fin.ext ?_)
    · show (64 * a.val + b.val) / 64 = a.val
      omega
    · show (64 * a.val + b.val) % 64 = b.val
      omega
  right_inv := fun i => Fin.ext (by
    show 64 * (i.val / 64) + i.val % 64 = i.val
    omega)

/-- A grid point as (first block number, second block number). -/
def gridPt : Fin 8 × Fin 8 ≃ Fin 64 where
  toFun p := ⟨8 * p.1.val + p.2.val, by have := p.1.isLt; have := p.2.isLt; omega⟩
  invFun t := (⟨t.val / 8, by have := t.isLt; omega⟩, ⟨t.val % 8, Nat.mod_lt _ (by decide)⟩)
  left_inv := fun ⟨a, b⟩ => by
    have ha := a.isLt
    have hb := b.isLt
    refine Prod.ext (Fin.ext ?_) (Fin.ext ?_)
    · show (8 * a.val + b.val) / 8 = a.val
      omega
    · show (8 * a.val + b.val) % 8 = b.val
      omega
  right_inv := fun t => Fin.ext (by
    show 8 * (t.val / 8) + t.val % 8 = t.val
    omega)

/-- The double sum over rows and columns is the sum over the 64 tiles of each tile's double sum. -/
theorem sum_tiles (f : Fin 512 → Fin 512 → EReal) :
    ∑ i : Fin 512, ∑ j : Fin 512, f i j
      = ∑ t : Fin 64, ∑ r : Fin 64, ∑ cc : Fin 64,
          f ⟨64 * (t.val / 8) + r.val, by have := t.isLt; have := r.isLt; omega⟩
            ⟨64 * (t.val % 8) + cc.val, by have := t.isLt; have := cc.isLt; omega⟩ := by
  have h1 : ∑ i : Fin 512, ∑ j : Fin 512, f i j
      = ∑ p : Fin 8 × Fin 64, ∑ q : Fin 8 × Fin 64, f (blockRow p) (blockRow q) := by
    rw [← Equiv.sum_comp blockRow (fun i => ∑ j : Fin 512, f i j)]
    refine Finset.sum_congr rfl fun p _ => ?_
    rw [← Equiv.sum_comp blockRow (fun j => f (blockRow p) j)]
  have h2 : ∑ p : Fin 8 × Fin 64, ∑ q : Fin 8 × Fin 64, f (blockRow p) (blockRow q)
      = ∑ I : Fin 8, ∑ J : Fin 8, ∑ r : Fin 64, ∑ cc : Fin 64, f (blockRow (I, r)) (blockRow (J, cc)) := by
    rw [Fintype.sum_prod_type]
    refine Finset.sum_congr rfl fun I _ => ?_
    have : ∀ r : Fin 64, ∑ q : Fin 8 × Fin 64, f (blockRow (I, r)) (blockRow q)
        = ∑ J : Fin 8, ∑ cc : Fin 64, f (blockRow (I, r)) (blockRow (J, cc)) := fun r => Fintype.sum_prod_type _
    simp only [this]
    exact Finset.sum_comm
  have h3 : ∑ I : Fin 8, ∑ J : Fin 8, ∑ r : Fin 64, ∑ cc : Fin 64, f (blockRow (I, r)) (blockRow (J, cc))
      = ∑ p : Fin 8 × Fin 8, ∑ r : Fin 64, ∑ cc : Fin 64, f (blockRow (p.1, r)) (blockRow (p.2, cc)) :=
    (Fintype.sum_prod_type (fun p : Fin 8 × Fin 8 => ∑ r : Fin 64, ∑ cc : Fin 64, f (blockRow (p.1, r)) (blockRow (p.2, cc)))).symm
  have h4 : ∑ p : Fin 8 × Fin 8, ∑ r : Fin 64, ∑ cc : Fin 64, f (blockRow (p.1, r)) (blockRow (p.2, cc))
      = ∑ t : Fin 64, ∑ r : Fin 64, ∑ cc : Fin 64,
          f (blockRow ((gridPt.symm t).1, r)) (blockRow ((gridPt.symm t).2, cc)) :=
    (Equiv.sum_comp gridPt.symm
      (fun p : Fin 8 × Fin 8 => ∑ r : Fin 64, ∑ cc : Fin 64, f (blockRow (p.1, r)) (blockRow (p.2, cc)))).symm
  rw [h1, h2, h3, h4]
  rfl

section
variable (X : A2 512 2048) (Y : A2 512 768) (Wt : A2 2048 128) (bt : A1 128) (Ws : A2 768 128) (bs : A1 128)
  (W1 : A2 256 128) (b1 : A1 128) (W2 : A2 128 1) (b2 : A1 1)

/-- The sum over all pairs is the sum of the 64 tile sums. -/
theorem lossSum_eq_tiles :
    lossSum X Y Wt bt Ws bs W1 b1 W2 b2 = ∑ t : Fin 64, tileSum X Y Wt bt Ws bs W1 b1 W2 b2 t := by
  unfold lossSum tileSum
  exact sum_tiles (fun i j => sqd X Y Wt bt Ws bs W1 b1 W2 b2 i j)

/-- The same with the tiles taken in grid order, as a sum over an initial segment of the naturals. -/
theorem lossSum_eq_range (T : ℕ → EReal)
    (hT : ∀ t : Fin 64, T t.val = tileSum X Y Wt bt Ws bs W1 b1 W2 b2 t) :
    lossSum X Y Wt bt Ws bs W1 b1 W2 b2 = ∑ t ∈ Finset.range 64, T t := by
  rw [lossSum_eq_tiles, ← Fin.sum_univ_eq_sum_range]
  exact Finset.sum_congr rfl fun t _ => (hT t).symm
end

end Cert.PairRel

end
-- ==== Proof.KTile.lean ====
/-
  A tile's sum from the point's blocks is the specification's tile sum of the argument arrays. Row r of a first-row
  block at point t is row 64 (t / 8) + r of the first-row share, row cc of a second-row block is row 64 (t % 8) + cc
  of the second-row share; the host lines before the region make those shares the specification's `headA` and
  `headB` of the two projections; and the pair is diagonal exactly when its two global row numbers are equal.
-/
import proofs.«177132_j47674136986059_1_alg».proof.Proof.KAcc
import proofs.«177132_j47674136986059_1_alg».proof.Proof.KHost
import proofs.«177132_j47674136986059_1_alg».proof.Proof.SpecSum

set_option maxRecDepth 16384

noncomputable section

namespace Cert.KernelIdeal.RunValue

open Idealize.ShloMosaic Idealize.ShloMosaic.TcCoe Idealize.SL.Sem Idealize.ShloMosaic.ValueIdx
open Cert.KernelIdeal Cert.KernelIdeal.Gen Cert.KernelIdeal.Step Cert.KernelIdeal.Blocks Cert.KernelIdeal.HostValue Cert.PairRel

variable (m : (ℓ : Loc nD τ sig) → Buf (Elt Ideal) ℓ) (c : Dev nD)

/-- Point `t`'s tile sum is the specification's. -/
theorem tileK_eq (t : Fin cfg0.N) :
    tileK m c t = tileSum (aX m c) (aY m c) (aWt m c) (abt m c) (aWs m c) (abs m c) (aW1 m c) (ab1 m c) (aW2 m c) (ab2 m c) ⟨t.val, lt_of_lt_of_eq t.isLt N64⟩ := by
  unfold tileK tileSum sqd
  refine Finset.sum_congr rfl fun r _ => Finset.sum_congr rfl fun cc _ => ?_
  have e0 : (fun h => blk0 m c t (ix2 r h))
      = headA (lin (aX m c) (aWt m c) (abt m c)) (aW1 m c) (ab1 m c) (row (t.val / 8) (tdiv_lt t) r) :=
    funext fun h => (blk0_apply m c t r h).trans (V13 m c _ h)
  have e1 : (fun h => blk1 m c t (ix2 cc h))
      = headB (lin (aX m c) (aWt m c) (abt m c)) (aW1 m c) (row (t.val % 8) (tmod_lt t) cc) :=
    funext fun h => (blk1_apply m c t cc h).trans (V14 m c _ h)
  have e2 : (fun h => blk2 m c t (ix2 r h))
      = headA (lin (aY m c) (aWs m c) (abs m c)) (aW1 m c) (ab1 m c) (row (t.val / 8) (tdiv_lt t) r) :=
    funext fun h => (blk2_apply m c t r h).trans (V18 m c _ h)
  have e3 : (fun h => blk3 m c t (ix2 cc h))
      = headB (lin (aY m c) (aWs m c) (abs m c)) (aW1 m c) (row (t.val % 8) (tmod_lt t) cc) :=
    funext fun h => (blk3_apply m c t cc h).trans (V19 m c _ h)
  have e4 : (fun h => blk4 m c t (ix2 (0 : Fin 1) h)) = fun h => aW2 m c (ix2 h (0 : Fin 1)) :=
    funext fun h => (blk4_apply m c t h).trans (V20 m c h)
  have e5 : blk5 m c t (ix2 (0 : Fin 1) (0 : Fin 1)) = ab2 m c (ix1 (0 : Fin 1)) :=
    (blk5_apply m c t).trans (V21 m c)
  rw [e0, e1, e2, e3, e4, e5]
  refine pairSq_congr _ _ _ _ _ _ ?_
  rw [coords0, coords1]
  exact ⟨fun h => Fin.ext h, fun h => congrArg Fin.val h⟩

/-- The tile sums in grid order are the specification's. -/
theorem tileN_eq (t : Fin 64) : tileN m c t.val = tileSum (aX m c) (aY m c) (aWt m c) (abt m c) (aWs m c) (abs m c) (aW1 m c) (ab1 m c) (aW2 m c) (ab2 m c) t := by
  unfold tileN
  rw [dif_pos (lt_of_lt_of_eq t.isLt N64.symm)]
  exact tileK_eq m c ⟨t.val, lt_of_lt_of_eq t.isLt N64.symm⟩

/-- After the last point the accumulator's entry is the sum over all pairs. -/
theorem acc_last (h63 : 63 < cfg0.N) :
    ((outsAt0 m c 63 h63).2 : S1x1.Idx → EReal) (ix2 (0 : Fin 1) (0 : Fin 1)) = lossSum (aX m c) (aY m c) (aWt m c) (abt m c) (aWs m c) (abs m c) (aW1 m c) (ab1 m c) (aW2 m c) (ab2 m c) := by
  rw [acc_eq_sum m c 63 h63]
  exact (lossSum_eq_range (aX m c) (aY m c) (aWt m c) (abt m c) (aWs m c) (abs m c) (aW1 m c) (ab1 m c) (aW2 m c) (ab2 m c) (tileN m c) (tileN_eq m c)).symm

end Cert.KernelIdeal.RunValue

end
-- ==== Proof.KFinal.lean ====
/-
  The kernel program's result. Only the grid's last point writes the 1 x 1 output block back, and that block is the
  whole output array, so the array ends holding the accumulator's last contents: the sum over all pairs. The two host
  lines after the region re-lay it as a scalar and divide by the number of pairs.
-/
import proofs.«177132_j47674136986059_1_alg».proof.Proof.KTile
import Idealize.ShloMosaic.Lib.Pipeline.Value
import Idealize.ShloMosaic.Lib.StableHlo.Run
import Idealize.ShloMosaic.Lib.ValueLayout

set_option maxRecDepth 16384

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Step Cert.KernelIdeal.Blocks Cert.KernelIdeal.HostValue Cert.PairRel

variable (m : (ℓ : Loc nD τ sig) → Buf (Elt Ideal) ℓ) (ρ : Dev nD → PrngReg) (c : Dev nD)

theorem h63 : 63 < cfg0.N := lt_of_lt_of_eq (by decide : 63 < 64) N64.symm

/-- The grid's last point. -/
abbrev tLast : Fin cfg0.N := ⟨63, h63⟩

/-- The total, as contents of the output array. -/
abbrev total : Buf (Elt Ideal) ((c : Thread nD τ).loc main_v22) := (outsAt0 m c 63 h63).1

/-- The one write-back, at the last point, writes the total: the block at offset zero is the whole array. -/
theorem flushed_eq (t : Fin cfg0.N) (hf : (cfg0.win 6).flush t = true) :
    (dats m 0 c).flushed 6 t = ((cfg0.win 6).blk t).view.read (Elt Ideal) (total m c) := by
  have hN : t.val < 64 := lt_of_lt_of_eq t.isLt N64
  have h : t.val = 63 := by have := (flush0_6 t).mp hf; omega
  obtain rfl : t = tLast := Fin.ext h
  show (cfg0.win 6).cut (grid0.coords tLast) ((dats m 0 c).after 6 tLast) = _
  rw [after0_6]
  have hz' : (fun a => win0_6.index tLast a * main_v22.ty.shape.size a) = fun _ => 0 :=
    funext fun a => by fin_cases a <;> decide +kernel
  exact (Memref.read_access_unit_zero (Elt Ideal) main_v22 hz' (fun a => by rw [congrFun hz' a]; simp) (total m c)).symm

/-- So the output array ends holding the total. -/
theorem final_out : (dats m 0 c).arrAt 6 cfg0.N = total m c :=
  (dats m 0 c).arrAt_eq_of_cover 6 (total m c) (flushed_eq m c) fun i =>
    ⟨tLast, (flush0_6 tLast).mpr rfl, by
      show i ∈ ((View.whole main_v22).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat) ∧ (i 0 : Nat) < win0_6.index tLast 0 * win0_6.size 0 + win0_6.xsize (grid0.coords tLast) 0
        rw [show win0_6.index tLast 0 * win0_6.size 0 = 0 from by decide +kernel, show win0_6.xsize (grid0.coords tLast) 0 = 1 from by decide +kernel]
        omega
      | ⟨1, _⟩ =>
        show win0_6.index tLast 1 * win0_6.size 1 ≤ (i 1 : Nat) ∧ (i 1 : Nat) < win0_6.index tLast 1 * win0_6.size 1 + win0_6.xsize (grid0.coords tLast) 1
        rw [show win0_6.index tLast 1 * win0_6.size 1 = 0 from by decide +kernel, show win0_6.xsize (grid0.coords tLast) 1 = 1 from by decide +kernel]
        omega⟩

/-- A 1 x 1 array has one index. -/
instance : Subsingleton S1x1.Idx :=
  ⟨fun a b => funext fun d => match d with
    | ⟨0, _⟩ => Subsingleton.elim (α := Fin 1) _ _
    | ⟨1, _⟩ => Subsingleton.elim (α := Fin 1) _ _⟩

/-- The total's one entry is the sum over all pairs. -/
theorem total_apply (j : S1x1.Idx) :
    (total m c : S1x1.Idx → EReal) j = lossSum (aX m c) (aY m c) (aWt m c) (abt m c) (aWs m c) (abs m c) (aW1 m c) (ab1 m c) (aW2 m c) (ab2 m c) := by
  obtain rfl : j = ix2 (0 : Fin 1) (0 : Fin 1) := Subsingleton.elim _ _
  have e : (outsAt0 m c 63 h63).1 = (outsAt0 m c 63 h63).2 := out_last m c tLast rfl
  show ((outsAt0 m c 63 h63).1 : S1x1.Idx → EReal) (ix2 (0 : Fin 1) (0 : Fin 1)) = _
  rw [e]
  exact acc_last m c h63

end Cert.KernelIdeal.RunValue

end
-- ==== Proof.KTail.lean ====
/-
  The kernel program's run with its result named: every weakly fair execution ends with the result scalar at the loss
  of the argument arrays and the arguments unchanged. The two host lines after the region re-lay the 1 x 1 output array
  as a scalar and divide it by the number of pairs, the divisor being the same binary32 word the specification keeps.
-/
import proofs.«177132_j47674136986059_1_alg».proof.Proof.KFinal

set_option maxRecDepth 16384

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Step Cert.KernelIdeal.Blocks Cert.KernelIdeal.HostValue Cert.PairRel

variable (m : (ℓ : Loc nD τ sig) → Buf (Elt Ideal) ℓ) (ρ : Dev nD → PrngReg) (c : Dev nD)

/-- The program's result: the host lines after the region applied to the output array. -/
theorem tail_eq :
    Pipeline.afterTail₀ cfgs (dats m) 0 (V0 m) [hostOps1] c main_v24 = fun _ => loss (aX m c) (aY m c) (aWt m c) (abt m c) (aWs m c) (abs m c) (aW1 m c) (ab1 m c) (aW2 m c) (ab2 m c) := by
  unfold Pipeline.afterTail₀
  show StableHlo.after hostOps1 _ (Proc.devRef .tc main_v24) = _
  after_results
  have hW : Pipeline.withArrays (cfgs 0).spec c (V0 m c) (fun w => (dats m 0 c).arrAt w (cfgs 0).N)
      (Proc.devRef .tc main_v22) = total m c :=
    (Pipeline.withArrays_arr spec0 launch0.win.arr_inj c _ _ 6).trans (final_out m c)
  funext x
  unfold loss
  refine congrArg (fun s => FloatOps.hostDivf (F := Ideal) (φ := .f32) s (FloatOps.ofBits .f32 0x48800000#32)) ?_
  show shapeCast S_ (Pipeline.withArrays (cfgs 0).spec c (V0 m c) (fun w => (dats m 0 c).arrAt w (cfgs 0).N)
      (Proc.devRef .tc main_v22)) shapeCasts_S1x1_S_ x = _
  rw [hW]
  unfold shapeCast
  exact total_apply m c _

/-- The run, read: the result at the loss, the arguments unchanged. -/
theorem run_value : θ_run defs (onTc (τ := τ) (main (F := Ideal))) ⟨m, fun _ => 0, ρ⟩ (fun r => ∀ c : Dev nD,
      r.2.mem ((c.tc : Thread nD τ).loc main_v24) = (fun _ => loss (aX m c) (aY m c) (aWt m c) (abt m c) (aWs m c) (abs m c) (aW1 m c) (ab1 m c) (aW2 m c) (ab2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.RunValue

end
-- ==== Proof.RefIsSpec.lean ====
/-
  The reference program computes the loss: its last stage, read operation by operation at the ideal instance, is the
  specification's `loss` of the ten argument arrays. The reference concatenates the two rows of a pair and contracts
  all 256 rows of W1 at once, adding b1 last; splitting that sum at 128 and re-associating gives the two shares. Its
  logistic is spelt 1 / (1 + exp (-x)); its diagonal mask is a product with 1 - [i = j].
-/
import proofs.«177132_j47674136986059_1_alg».proof.Proof.Gen.ReferenceIdeal.Read
import proofs.«177132_j47674136986059_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.ReferenceIdeal.RefValue

open Idealize.ShloMosaic Idealize.ShloMosaic.ValueIdx Cert.ReferenceIdeal Cert.PairRel

/-! ### Words -/

/-- The binary32 word 0x3F800000 is the number one. -/
theorem one_word : Ideal.ofBits .f32 0x3F800000#32 = 1 := by
  simp [Ideal.ofBits, Ideal.ieee, -EReal.coe_mul]; norm_num

/-- Comparing the 32-bit words of two row numbers below 512 for equality (the first with a zero added) gives the
    one-bit word 1 exactly when the rows are the same. -/
theorem diag_word (i j : Fin 512) :
    IntOp.cmpi .eq (IntOp.addi (BitVec.ofNat 32 i.val) 0#32) (BitVec.ofNat 32 j.val)
      = if i = j then 1#1 else 0#1 := by
  have key : IntOp.addi (BitVec.ofNat 32 i.val) 0#32 = BitVec.ofNat 32 j.val ↔ i = j := by
    rw [IntOp.addi, BitVec.add_zero]
    constructor
    · intro h
      have e := congrArg BitVec.toNat h
      simp only [BitVec.toNat_ofNat] at e
      have hi := i.isLt
      have hj := j.isLt
      exact Fin.ext (by omega)
    · rintro rfl; rfl
  split
  · next h => exact StableHlo.Predicate.cmpi_eq_iff.mpr (key.mpr h)
  · next h => exact eq_zero_of_ne_one fun hc => h (key.mp (StableHlo.Predicate.cmpi_eq_iff.mp hc))

/-- The reference's masked score: 1 / (1 + exp (-s)), times one minus the diagonal indicator, is the logistic of s
    off the diagonal and zero on it. On the extended reals x * 0 = 0 and x * 1 = x hold for every x. -/
theorem masked_logistic (s : EReal) (i j : Fin 512) :
    FloatOps.mulf (F := Ideal) (φ := .f32)
        (FloatOps.hostDivf (FloatOps.ofBits .f32 0x3F800000#32)
          (FloatOps.addf (FloatOps.ofBits .f32 0x3F800000#32) (FloatOps.hostUnary .exp (FloatOps.hostNegf s))))
        (FloatOps.subf (FloatOps.ofBits .f32 0x3F800000#32)
          (FloatOps.uitofp .f32
            (IntOp.cmpi .eq (IntOp.addi (BitVec.ofNat 32 i.val) 0#32) (BitVec.ofNat 32 j.val))))
      = if i = j then 0 else Ideal.logistic s := by
  rw [diag_word]
  simp only [Ideal.ofBits_def, one_word, Ideal.mulf_def, Ideal.subf_def]
  split
  · have e : FloatOps.uitofp (F := Ideal) .f32 (1#1 : BitVec 1) = (1 : EReal) := by
      show (((1#1 : BitVec 1).toNat : ℝ) : EReal) = 1
      simp
    have z : (1 : EReal) - 1 = 0 := by rw [← EReal.coe_one, ← EReal.coe_sub, sub_self, EReal.coe_zero]
    rw [e, z, mul_zero]
  · have e : FloatOps.uitofp (F := Ideal) .f32 (0#1 : BitVec 1) = (0 : EReal) := by
      show (((0#1 : BitVec 1).toNat : ℝ) : EReal) = 0
      simp
    rw [e, sub_zero, mul_one]
    rfl

/-! ### Indices

The generated stages read their operands at indices computed coordinate by coordinate; at an index built from its
coordinates these are again indices built from coordinates. The student's stages use the same index functions under
other names, so each equation below serves both halves. -/

theorem pairIdx_first (i j : Fin 512) (k : Fin 128) :
    Read.idx_main_v8 (Read.idx_main_v9 (ix3 i j k)) = ix2 i k :=
  funext fun a => by match a with | ⟨0, _⟩ => rfl | ⟨1, _⟩ => rfl

theorem pairIdx_second (i j : Fin 512) (k : Fin 128) :
    Read.idx_main_v10 (Read.idx_main_v11 (ix3 i j k)) = ix2 j k :=
  funext fun a => by match a with | ⟨0, _⟩ => rfl | ⟨1, _⟩ => rfl

theorem hiddenIdx_left (i j : Fin 512) (h : Fin 128) (k : Fin 256) :
    Read.lidx_main_v13 (ix3 i j h) k = ix3 i j k :=
  funext fun a => by match a with | ⟨0, _⟩ => rfl | ⟨1, _⟩ => rfl | ⟨2, _⟩ => rfl

theorem hiddenIdx_right (i j : Fin 512) (h : Fin 128) (k : Fin 256) :
    Read.ridx_main_v13 (ix3 i j h) k = ix2 k h :=
  funext fun a => by match a with | ⟨0, _⟩ => rfl | ⟨1, _⟩ => rfl

theorem hiddenIdx_bias (i j : Fin 512) (h : Fin 128) :
    Read.idx_main_v14 (Read.idx_main_v15 (ix3 i j h)) = ix1 h :=
  funext fun a => by match a with | ⟨0, _⟩ => rfl

/-- Row-major position 512 i + j of the 512 x 512 x 1 array is its entry (i, j, 0). -/
theorem scoreIdx_unflatten (i j : Fin 512) :
    Read.idx_main_v28 (ix2 i j) = ix3 i j (0 : Fin 1) :=
  funext fun a => by
    have hi := i.isLt
    have hj := j.isLt
    match a with
    | ⟨0, _⟩ => exact Fin.ext (by show (i.val * 512 + j.val) / 512 = i.val; omega)
    | ⟨1, _⟩ => exact Fin.ext (by show (i.val * 512 + j.val) / 1 % 512 = j.val; omega)
    | ⟨2, _⟩ => rfl

theorem scoreIdx_left (i j : Fin 512) (h : Fin 128) :
    Read.lidx_main_v18 (ix3 i j (0 : Fin 1)) h = ix3 i j h :=
  funext fun a => by match a with | ⟨0, _⟩ => rfl | ⟨1, _⟩ => rfl | ⟨2, _⟩ => rfl

theorem scoreIdx_right (i j : Fin 512) (h : Fin 128) :
    Read.ridx_main_v18 (ix3 i j (0 : Fin 1)) h = ix2 h (0 : Fin 1) :=
  funext fun a => by match a with | ⟨0, _⟩ => rfl | ⟨1, _⟩ => rfl

theorem scoreIdx_bias (i j : Fin 512) :
    Read.idx_main_v19 (Read.idx_main_v20 (ix3 i j (0 : Fin 1))) = ix1 (0 : Fin 1) :=
  funext fun a => by match a with | ⟨0, _⟩ => rfl

/-! The same equations under the student's stage names. -/

theorem pairIdx_first_s (i j : Fin 512) (k : Fin 128) :
    Read.idx_main_v38 (Read.idx_main_v39 (ix3 i j k)) = ix2 i k := pairIdx_first i j k

theorem pairIdx_second_s (i j : Fin 512) (k : Fin 128) :
    Read.idx_main_v40 (Read.idx_main_v41 (ix3 i j k)) = ix2 j k := pairIdx_second i j k

theorem hiddenIdx_left_s (i j : Fin 512) (h : Fin 128) (k : Fin 256) :
    Read.lidx_main_v43 (ix3 i j h) k = ix3 i j k := hiddenIdx_left i j h k

theorem hiddenIdx_right_s (i j : Fin 512) (h : Fin 128) (k : Fin 256) :
    Read.ridx_main_v43 (ix3 i j h) k = ix2 k h := hiddenIdx_right i j h k

theorem hiddenIdx_bias_s (i j : Fin 512) (h : Fin 128) :
    Read.idx_main_v44 (Read.idx_main_v45 (ix3 i j h)) = ix1 h := hiddenIdx_bias i j h

theorem scoreIdx_unflatten_s (i j : Fin 512) :
    Read.idx_main_v58 (ix2 i j) = ix3 i j (0 : Fin 1) := scoreIdx_unflatten i j

theorem scoreIdx_left_s (i j : Fin 512) (h : Fin 128) :
    Read.lidx_main_v48 (ix3 i j (0 : Fin 1)) h = ix3 i j h := scoreIdx_left i j h

theorem scoreIdx_right_s (i j : Fin 512) (h : Fin 128) :
    Read.ridx_main_v48 (ix3 i j (0 : Fin 1)) h = ix2 h (0 : Fin 1) := scoreIdx_right i j h

theorem scoreIdx_bias_s (i j : Fin 512) :
    Read.idx_main_v49 (Read.idx_main_v50 (ix3 i j (0 : Fin 1))) = ix1 (0 : Fin 1) := scoreIdx_bias i j

/-! ### One pair's hidden pre-activation -/

/-- A sum over 256 rows plus a bias is the sum over the first 128 rows plus the bias, plus the sum over the last 128
    rows: addition on the extended reals is commutative and associative, no finiteness is needed. -/
theorem sum_halves (f : Fin 256 → EReal) (b : EReal) :
    (∑ k : Fin 256, f k) + b = ((∑ k : Fin 128, f (lo k)) + b) + ∑ k : Fin 128, f (hi k) := by
  have e : (∑ k : Fin 256, f k) = (∑ k : Fin 128, f (lo k)) + ∑ k : Fin 128, f (hi k) :=
    Fin.sum_univ_add (a := 128) (b := 128) f
  rw [e, add_right_comm]

/-- If a 256-entry row is the feature row of i followed by the feature row of j, contracting it against W1 and adding
    b1 gives the two shares of the pair (i, j). -/
theorem hidden_of_row (c : Fin 256 → EReal) (f : Fin 512 → Fin 128 → EReal) (W1 : A2 256 128) (b1 : A1 128)
    (i j : Fin 512) (h : Fin 128) (hlo : ∀ k, c (lo k) = f i k) (hhi : ∀ k, c (hi k) = f j k) :
    (∑ k : Fin 256, c k * W1 (ix2 k h)) + b1 (ix1 h) = headA f W1 b1 i h + headB f W1 j h := by
  rw [sum_halves]
  simp only [hlo, hhi]
  rfl

/-! ### The two projections -/

/-- The teacher's projection stage at (i, h) is the linear layer X . Wt + bt. -/
theorem teacher_proj (X : A2 512 2048) (Wt : A2 2048 128) (bt : A1 128) (i : Fin 512) (h : Fin 128) :
    Read.val_main_v3 (F := Ideal) X Wt bt (ix2 i h) = lin X Wt bt i h := by
  have el : ∀ k : Fin 2048, Read.lidx_main_v0 (ix2 i h) k = ix2 i k := fun k =>
    funext fun a => by match a with | ⟨0, _⟩ => rfl | ⟨1, _⟩ => rfl
  have er : ∀ k : Fin 2048, Read.ridx_main_v0 (ix2 i h) k = ix2 k h := fun k =>
    funext fun a => by match a with | ⟨0, _⟩ => rfl | ⟨1, _⟩ => rfl
  have eb : Read.idx_main_v1 (Read.idx_main_v2 (ix2 i h)) = ix1 h :=
    funext fun a => by match a with | ⟨0, _⟩ => rfl
  rw [Read.val_main_v3_apply, Read.val_main_v0_apply, Read.val_main_v2_apply, Read.val_main_v1_apply, eb]
  simp only [el, er]
  rfl

/-- The student's projection stage at (i, h) is the linear layer Y . Ws + bs. -/
theorem student_proj (Y : A2 512 768) (Ws : A2 768 128) (bs : A1 128) (i : Fin 512) (h : Fin 128) :
    Read.val_main_v7 (F := Ideal) Y Ws bs (ix2 i h) = lin Y Ws bs i h := by
  have el : ∀ k : Fin 768, Read.lidx_main_v4 (ix2 i h) k = ix2 i k := fun k =>
    funext fun a => by match a with | ⟨0, _⟩ => rfl | ⟨1, _⟩ => rfl
  have er : ∀ k : Fin 768, Read.ridx_main_v4 (ix2 i h) k = ix2 k h := fun k =>
    funext fun a => by match a with | ⟨0, _⟩ => rfl | ⟨1, _⟩ => rfl
  have eb : Read.idx_main_v5 (Read.idx_main_v6 (ix2 i h)) = ix1 h :=
    funext fun a => by match a with | ⟨0, _⟩ => rfl
  rw [Read.val_main_v7_apply, Read.val_main_v4_apply, Read.val_main_v6_apply, Read.val_main_v5_apply, eb]
  simp only [el, er]
  rfl

/-! ### The concatenated pair rows -/

/-- Joining two 512 x 512 x 128 arrays along the last axis: an entry in the first 128 columns is the first array's. -/
theorem joined_lo {α : Type} (x₁ x₂ : S512x512x128.Idx → α) (i j : Fin 512) (k : Fin 128) :
    concatenate S512x512x256 2 [⟨S512x512x128, x₁⟩, ⟨S512x512x128, x₂⟩]
        Gen.concatenates_S512x512x128_S512x512x128_S512x512x256_d2 (ix3 i j (lo k)) = x₁ (ix3 i j k) :=
  concatenate_pair_apply_left 2 x₁ x₂ _ (ix3 i j (lo k)) rfl (ix3 i j k)
    (fun b => by match b with | ⟨0, _⟩ => rfl | ⟨1, _⟩ => rfl | ⟨2, _⟩ => rfl)

/-- … and an entry in the last 128 columns is the second array's, 128 columns to the left. -/
theorem joined_hi {α : Type} (x₁ x₂ : S512x512x128.Idx → α) (i j : Fin 512) (k : Fin 128) :
    concatenate S512x512x256 2 [⟨S512x512x128, x₁⟩, ⟨S512x512x128, x₂⟩]
        Gen.concatenates_S512x512x128_S512x512x128_S512x512x256_d2 (ix3 i j (hi k)) = x₂ (ix3 i j k) :=
  concatenate_pair_apply_right 2 x₁ x₂ _ (ix3 i j (hi k)) rfl rfl (ix3 i j k)
    (fun b hb => by
      match b with
      | ⟨0, _⟩ => rfl
      | ⟨1, _⟩ => rfl
      | ⟨2, _⟩ => exact absurd rfl hb)
    (by show k.val + 128 = 128 + k.val; omega)

/-- The teacher's pair row of (i, j) is the feature row of i … -/
theorem teacher_row_lo (X : A2 512 2048) (Wt : A2 2048 128) (bt : A1 128) (i j : Fin 512) (k : Fin 128) :
    Read.val_main_v12 (F := Ideal) X Wt bt (ix3 i j (lo k)) = lin X Wt bt i k := by
  unfold Read.val_main_v12
  rw [joined_lo, Read.val_main_v9_apply, Read.val_main_v8_apply, pairIdx_first, teacher_proj]

/-- … followed by the feature row of j. -/
theorem teacher_row_hi (X : A2 512 2048) (Wt : A2 2048 128) (bt : A1 128) (i j : Fin 512) (k : Fin 128) :
    Read.val_main_v12 (F := Ideal) X Wt bt (ix3 i j (hi k)) = lin X Wt bt j k := by
  unfold Read.val_main_v12
  rw [joined_hi, Read.val_main_v11_apply, Read.val_main_v10_apply, pairIdx_second, teacher_proj]

/-- The student's pair row of (i, j) is the feature row of i … -/
theorem student_row_lo (Y : A2 512 768) (Ws : A2 768 128) (bs : A1 128) (i j : Fin 512) (k : Fin 128) :
    Read.val_main_v42 (F := Ideal) Y Ws bs (ix3 i j (lo k)) = lin Y Ws bs i k := by
  unfold Read.val_main_v42
  rw [joined_lo, Read.val_main_v39_apply, Read.val_main_v38_apply,
    pairIdx_first_s, student_proj]

/-- … followed by the feature row of j. -/
theorem student_row_hi (Y : A2 512 768) (Ws : A2 768 128) (bs : A1 128) (i j : Fin 512) (k : Fin 128) :
    Read.val_main_v42 (F := Ideal) Y Ws bs (ix3 i j (hi k)) = lin Y Ws bs j k := by
  unfold Read.val_main_v42
  rw [joined_hi, Read.val_main_v41_apply, Read.val_main_v40_apply,
    pairIdx_second_s, student_proj]

/-! ### The hidden layer and the masked score, for each half -/

/-- The teacher's hidden pre-activation of the pair (i, j) at unit h is the sum of the two shares. -/
theorem teacher_hidden (X : A2 512 2048) (Wt : A2 2048 128) (bt : A1 128) (W1 : A2 256 128) (b1 : A1 128)
    (i j : Fin 512) (h : Fin 128) :
    Read.val_main_v16 (F := Ideal) X Wt bt W1 b1 (ix3 i j h)
      = headA (lin X Wt bt) W1 b1 i h + headB (lin X Wt bt) W1 j h := by
  rw [Read.val_main_v16_apply, Read.val_main_v13_apply, Read.val_main_v15_apply, Read.val_main_v14_apply,
    hiddenIdx_bias, Ideal.addf_def]
  simp only [hiddenIdx_left, hiddenIdx_right]
  exact hidden_of_row (fun k => Read.val_main_v12 (F := Ideal) X Wt bt (ix3 i j k)) (lin X Wt bt) W1 b1 i j h
    (teacher_row_lo X Wt bt i j) (teacher_row_hi X Wt bt i j)

/-- The student's hidden pre-activation of the pair (i, j) at unit h is the sum of the two shares. -/
theorem student_hidden (Y : A2 512 768) (Ws : A2 768 128) (bs : A1 128) (W1 : A2 256 128) (b1 : A1 128)
    (i j : Fin 512) (h : Fin 128) :
    Read.val_main_v46 (F := Ideal) Y Ws bs W1 b1 (ix3 i j h)
      = headA (lin Y Ws bs) W1 b1 i h + headB (lin Y Ws bs) W1 j h := by
  rw [Read.val_main_v46_apply, Read.val_main_v43_apply, Read.val_main_v45_apply, Read.val_main_v44_apply,
    hiddenIdx_bias_s, Ideal.addf_def]
  simp only [hiddenIdx_left_s, hiddenIdx_right_s]
  exact hidden_of_row (fun k => Read.val_main_v42 (F := Ideal) Y Ws bs (ix3 i j k)) (lin Y Ws bs) W1 b1 i j h
    (student_row_lo Y Ws bs i j) (student_row_hi Y Ws bs i j)

/-- The relation score of a pair from its hidden pre-activations: rectify, contract against the output unit's
    weights, add its bias, take the logistic; zero on the diagonal. -/
def score (a : Fin 128 → EReal) (W2 : A2 128 1) (b2 : A1 1) (i j : Fin 512) : EReal :=
  if i = j then 0 else Ideal.logistic ((∑ h : Fin 128, max (a h) 0 * W2 (ix2 h (0 : Fin 1))) + b2 (ix1 (0 : Fin 1)))

/-- The teacher's masked score stage at (i, j). -/
theorem teacher_score (X : A2 512 2048) (Wt : A2 2048 128) (bt : A1 128) (W1 : A2 256 128) (b1 : A1 128)
    (W2 : A2 128 1) (b2 : A1 1) (i j : Fin 512) :
    Read.val_main_v37 (F := Ideal) X Wt bt W1 b1 W2 b2 (ix2 i j)
      = score (fun h => headA (lin X Wt bt) W1 b1 i h + headB (lin X Wt bt) W1 j h) W2 b2 i j := by
  rw [Read.val_main_v37_apply, Read.val_main_v28_apply, scoreIdx_unflatten, Read.val_main_v27_apply,
    Read.val_main_v26_apply, Read.val_main_cst_0_apply, Read.val_main_v25_apply, Read.val_main_v24_apply,
    Read.val_main_cst_apply, Read.val_main_v23_apply, Read.val_main_v22_apply, Read.val_main_v21_apply,
    Read.val_main_v18_apply, Read.val_main_v20_apply, Read.val_main_v19_apply, scoreIdx_bias,
    Read.val_main_v36_apply, Read.val_main_v35_apply, Read.val_main_cst_1_apply, Read.val_main_v34_apply,
    Read.val_main_v33_apply, Read.val_main_v32_apply, Read.val_main_v29_apply, Read.val_main_v30_apply,
    Read.val_main_v31_apply, Read.val_main_c_apply]
  simp only [scoreIdx_left, scoreIdx_right, Read.val_main_v17_apply, Read.val_main_call0_v0_apply,
    Read.val_main_call0_cst_apply, teacher_hidden, Ideal.maximumf_def, Ideal.ofBits_def, Ideal.ofBits_zero_f32]
  exact masked_logistic _ i j

/-- The student's masked score stage at (i, j). -/
theorem student_score (Y : A2 512 768) (Ws : A2 768 128) (bs : A1 128) (W1 : A2 256 128) (b1 : A1 128)
    (W2 : A2 128 1) (b2 : A1 1) (i j : Fin 512) :
    Read.val_main_v67 (F := Ideal) Y Ws bs W1 b1 W2 b2 (ix2 i j)
      = score (fun h => headA (lin Y Ws bs) W1 b1 i h + headB (lin Y Ws bs) W1 j h) W2 b2 i j := by
  rw [Read.val_main_v67_apply, Read.val_main_v58_apply, scoreIdx_unflatten_s, Read.val_main_v57_apply,
    Read.val_main_v56_apply, Read.val_main_cst_3_apply, Read.val_main_v55_apply, Read.val_main_v54_apply,
    Read.val_main_cst_2_apply, Read.val_main_v53_apply, Read.val_main_v52_apply, Read.val_main_v51_apply,
    Read.val_main_v48_apply, Read.val_main_v50_apply, Read.val_main_v49_apply, scoreIdx_bias_s,
    Read.val_main_v66_apply, Read.val_main_v65_apply, Read.val_main_cst_5_apply, Read.val_main_v64_apply,
    Read.val_main_v63_apply, Read.val_main_v62_apply, Read.val_main_v59_apply, Read.val_main_v60_apply,
    Read.val_main_v61_apply, Read.val_main_c_4_apply]
  simp only [scoreIdx_left_s, scoreIdx_right_s, Read.val_main_v47_apply, Read.val_main_call1_v0_apply,
    Read.val_main_call1_cst_apply, student_hidden, Ideal.maximumf_def, Ideal.ofBits_def, Ideal.ofBits_zero_f32]
  exact masked_logistic _ i j

/-! ### The loss -/

/-- The squared difference stage at (i, j) is the specification's squared score difference of the pair. -/
theorem sq_diff (X : A2 512 2048) (Y : A2 512 768) (Wt : A2 2048 128) (bt : A1 128) (Ws : A2 768 128) (bs : A1 128)
    (W1 : A2 256 128) (b1 : A1 128) (W2 : A2 128 1) (b2 : A1 1) (i j : Fin 512) :
    Read.val_main_v69 (F := Ideal) X Y Wt bt Ws bs W1 b1 W2 b2 (ix2 i j) = sqd X Y Wt bt Ws bs W1 b1 W2 b2 i j := by
  rw [Read.val_main_v69_apply, Read.val_main_v68_apply, student_score, teacher_score]
  rfl

/-- The reference's result is the loss. -/
theorem ref_is_loss (X : A2 512 2048) (Y : A2 512 768) (Wt : A2 2048 128) (bt : A1 128) (Ws : A2 768 128) (bs : A1 128)
    (W1 : A2 256 128) (b1 : A1 128) (W2 : A2 128 1) (b2 : A1 1) :
    Cert.ReferenceIdeal.Read.val_main_v71 (F := Ideal) X Y Wt bt Ws bs W1 b1 W2 b2
      = fun _ => loss X Y Wt bt Ws bs W1 b1 W2 b2 := by
  funext i0
  have total : (∑ p : S512x512.Idx, Read.val_main_v69 (F := Ideal) X Y Wt bt Ws bs W1 b1 W2 b2 p)
      = lossSum X Y Wt bt Ws bs W1 b1 W2 b2 := by
    rw [sum_idx2]
    exact Finset.sum_congr rfl fun i _ => Finset.sum_congr rfl fun j _ => sq_diff X Y Wt bt Ws bs W1 b1 W2 b2 i j
  rw [Read.val_main_v71_apply, Read.val_main_v70_apply, Read.val_main_cst_7_apply, Read.val_main_cst_6_apply, total,
    show FloatOps.ofBits (F := Ideal) .f32 0x00000000#32 = (0 : EReal) from Ideal.ofBits_zero_f32, zero_add]
  rfl

end Cert.ReferenceIdeal.RefValue

end
-- ==== Proof.lean ====
/-
  The certificate of the pairwise relation loss.

  Both programs compute, from ten argument arrays, the mean over all 512 x 512 ordered pairs (i, j) of the squared
  difference between a student's and a teacher's relation score, where a score is the logistic of a two-layer perceptron
  applied to the pair's two projected feature rows and diagonal pairs score zero (Proof/Spec.lean states this once,
  over plain extended-real arrays).

  The reference builds every concatenated pair, contracts all 256 rows of the hidden layer's weights at once, and sums
  the 512 x 512 squared differences in one reduction (Proof/RefIsSpec.lean reads its generated run operation by
  operation down to the specification). The kernel program never forms the concatenation: host lines before the
  pallas_call multiply each projection by the two halves of the hidden weights (Proof/KHost.lean), the kernel visits
  the 8 x 8 grid of 64 x 64 tiles (Proof/KBlocks.lean), at each point adds the tile's sum of squared differences to a
  carried 1 x 1 accumulator (Proof/KPieces.lean, Proof/KStepIdeal.lean), which after the last point therefore holds
  the sum over all tiles (Proof/KAcc.lean, by induction on the point) — the sum over all pairs regrouped
  (Proof/SpecSum.lean, Proof/KTile.lean) —, writes it to the output once (Proof/KFinal.lean), and host lines after
  the region divide by the number of pairs (Proof/KTail.lean).

  The two sides differ only by splitting a 256-term sum at 128, re-associating a sum, x * 0 = 0 and x * 1 = x, and the
  order of a finite sum: all valid on the extended reals as they stand, so the precondition is never opened. The ideal
  pass rewrote nothing, so the idealization claim is trivial. The three frame claims are the generated frames (the
  reference's is its generated run with the result dropped).
-/
import proofs.«177132_j47674136986059_1_alg».proof.Defs
import proofs.«177132_j47674136986059_1_alg».proof.Proof.Gen.Kernel
import proofs.«177132_j47674136986059_1_alg».proof.Proof.Gen.Kernel.Frame
import proofs.«177132_j47674136986059_1_alg».proof.Proof.Gen.KernelIdeal
import proofs.«177132_j47674136986059_1_alg».proof.Proof.Gen.KernelIdeal.Frame
import proofs.«177132_j47674136986059_1_alg».proof.Proof.Gen.ReferenceIdeal
import proofs.«177132_j47674136986059_1_alg».proof.Proof.Gen.ReferenceIdeal.Run
import proofs.«177132_j47674136986059_1_alg».proof.Proof.Gen.ReferenceIdeal.Read
import proofs.«177132_j47674136986059_1_alg».proof.Proof.Gen.Pre_finite_inputs
import proofs.«177132_j47674136986059_1_alg».proof.Proof.KTail
import proofs.«177132_j47674136986059_1_alg».proof.Proof.RefIsSpec
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the loss of arguments that agree. -/
theorem algebraic : Cert.algebraic_KernelIdeal_ReferenceIdeal := by
  intro m ρ m' ρ' _ hagree
  refine ⟨fun c => (fun _ => Cert.PairRel.loss (Cert.KernelIdeal.HostValue.aX m c) (Cert.KernelIdeal.HostValue.aY m c)
      (Cert.KernelIdeal.HostValue.aWt m c) (Cert.KernelIdeal.HostValue.abt m c) (Cert.KernelIdeal.HostValue.aWs m c)
      (Cert.KernelIdeal.HostValue.abs m c) (Cert.KernelIdeal.HostValue.aW1 m c) (Cert.KernelIdeal.HostValue.ab1 m c)
      (Cert.KernelIdeal.HostValue.aW2 m c) (Cert.KernelIdeal.HostValue.ab2 m c)),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, Cert.ReferenceIdeal.RefValue.ref_is_loss]
  obtain ⟨h0, h1, h2, h3, h4, h5, h6, h7, h8, h9⟩ := hagree c
  rw [h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
